-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x32x32 : Shape := ⟨4, ![64, 8, 32, 32]⟩
abbrev S_ : Shape := ⟨0, ![]⟩

class Facts : Prop where
  bcast_S_S64x8x32x32 : S_.BroadcastsInDim S64x8x32x32 (![] : Fin 0 → Fin S64x8x32x32.rank)
  reducesTo_S64x8x32x32_S_d0_1_2_3 : S64x8x32x32.ReducesTo [0, 1, 2, 3] S_
  h_S_ : 0 < S_.numel

variable [Facts]

def fn {F : FTy → Type} [FloatOps F] (main_arg0 : FVec F S64x8x32x32 .f32) : IVec S_ 1 :=
  let main_v0 : FVec F S64x8x32x32 .f32 := Host.absf main_arg0
  let main_cst : FVec F S_ .f32 := constant S_ .f32 0x7F800000#32
  let main_v1 : FVec F S64x8x32x32 .f32 := broadcastInDim S64x8x32x32 ![] bcast_S_S64x8x32x32 main_cst
  let main_v2 : IVec S64x8x32x32 1 := cmpf .olt main_v0 main_v1
  let main_c : IVec S_ 1 := constantI S_ 1 1#1
  let main_v3 : IVec S_ 1 := (fun x v => Host.reduce IntOp.andi x v reducesTo_S64x8x32x32_S_d0_1_2_3 h_S_) main_v2 main_c
  main_v3
-- ==== Kernel.lean ====
abbrev S64x8x32x32 : Shape := ⟨4, ![64, 8, 32, 32]⟩
abbrev S64x8192 : Shape := ⟨2, ![64, 8192]⟩
abbrev S1x8192 : Shape := ⟨2, ![1, 8192]⟩
abbrev S63x8192 : Shape := ⟨2, ![63, 8192]⟩
abbrev S8192 : Shape := ⟨1, ![8192]⟩
abbrev S_ : Shape := ⟨0, ![]⟩
abbrev S8256x8192 : Shape := ⟨2, ![8256, 8192]⟩
abbrev S64x1 : Shape := ⟨2, ![64, 1]⟩
abbrev S8256x8x32x32 : Shape := ⟨4, ![8256, 8, 32, 32]⟩

abbrev nBuf : Space → Nat
  | .hbm => 27
  | .vmem => 9
  | .smem => 0
  | _ => 0

abbrev bufTy : (tb : Table) → Fin (tcTables nBuf tb) → BufTy
  | .hbm, ⟨0, _⟩ => ⟨S64x8x32x32, .f32⟩
  | .hbm, ⟨1, _⟩ => ⟨S64x8192, .f32⟩
  | .hbm, ⟨2, _⟩ => ⟨S64x8192, .f32⟩
  | .hbm, ⟨3, _⟩ => ⟨S1x8192, .f32⟩
  | .hbm, ⟨4, _⟩ => ⟨S1x8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S1x8192, .i32⟩
  | .hbm, ⟨24, _⟩ => ⟨S1x8192, .f32⟩
  | .hbm, ⟨25, _⟩ => ⟨S8256x8192, .f32⟩
  | .hbm, ⟨26, _⟩ => ⟨S8256x8x32x32, .f32⟩
  | .local _ .vmem, ⟨0, _⟩ => ⟨S64x8192, .f32⟩
  | .local _ .vmem, ⟨1, _⟩ => ⟨S64x8192, .f32⟩
  | .local _ .vmem, ⟨2, _⟩ => ⟨S1x8192, .f32⟩
  | .local _ .vmem, ⟨3, _⟩ => ⟨S1x8192, .f32⟩
  | .local _ .vmem, ⟨4, _⟩ => ⟨S64x8192, .f32⟩
  | .local _ .vmem, ⟨5, _⟩ => ⟨S1x8192, .i32⟩
  | .local _ .vmem, ⟨6, _⟩ => ⟨S1x8192, .f32⟩
  | .local _ .vmem, ⟨7, _⟩ => ⟨S64x8192, .f32⟩
  | .local _ .vmem, ⟨8, _⟩ => ⟨S64x8192, .f32⟩
  | _, _ => ⟨S64x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_c : Ref sig .tc := ⟨.hbm, 9, rfl⟩
abbrev main_call0_call0_v0 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![129], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x8192 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x8x32x32_S64x8192 : S64x8x32x32.ShapeCasts S64x8192
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  slices_S64x8192_o0_0_S1x8192 : S64x8192.Slices ![0, 0] S1x8192
  slices_S64x8192_o1_0_S63x8192 : S64x8192.Slices ![1, 0] S63x8192
  reduces_S63x8192_S8192 : S63x8192.Reduces [0] S8192
  shapeCasts_S8192_S1x8192 : S8192.ShapeCasts S1x8192
  natLt_1_32 : 1 < 32
  broadcasts_S1x8192_S63x8192 : S1x8192.Broadcasts S63x8192
  concatenates_S1x8192_S63x8192_S64x8192_d0 : Shape.Concatenates [S1x8192, S63x8192] S64x8192 0
  inb_S1x8192_S1x8192_0_0 : ∀ a, (![0, 0] : Fin 2 → Nat) a + S1x8192.size a ≤ S1x8192.size a
  h_S1x8192 : 0 < S1x8192.numel
  shapeCasts_S1x8192_S8192 : S1x8192.ShapeCasts S8192
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S8192 : S_.BroadcastsInDim S8192 (![] : Fin 0 → Fin S8192.rank)
  iota_S64x1_d0_w32 : S64x1.Iotas .tc 32 [0]
  shapeCasts_S1x8192_S1x8192 : S1x8192.ShapeCasts S1x8192
  broadcasts_S64x1_S64x8192 : S64x1.Broadcasts S64x8192
  broadcasts_S1x8192_S64x8192 : S1x8192.Broadcasts S64x8192
  shapeCasts_S8256x8192_S8256x8x32x32 : S8256x8192.ShapeCasts S8256x8x32x32
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .f32 = 32 ∨ (Rect.block (s := S64x8192) S64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .f32 = 32 ∨ (Rect.block (s := S64x8192) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x8192.size a
  hwx1_0 : ∀ i : grid1.Coords, EltTy.bits .f32 = 32 ∨ (Rect.block (s := S64x8192) S64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .i32 = 32 ∨ (Rect.block (s := S1x8192) S1x8192.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x8192.size a ≤ S8256x8192.size a
  hwx1_3 : ∀ i : grid1.Coords, EltTy.bits .f32 = 32 ∨ (Rect.block (s := S8256x8192) S64x8192.size (cc1_transform_3 i) (hinb1_3 i)).WholeWords (EltTy.packing .f32)

variable [Facts₀]

abbrev win0_0 : Pipeline.Window sig grid0 :=
  Pipeline.Window.ofSpec (Memref.whole main_v0) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S64x8192.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x8192.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S1x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_0) S64x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S64x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S64x8x32x32 : Shape := ⟨4, ![64, 8, 32, 32]⟩
abbrev S63x8x32x32 : Shape := ⟨4, ![63, 8, 32, 32]⟩
abbrev S_ : Shape := ⟨0, ![]⟩
abbrev S8x32x32 : Shape := ⟨3, ![8, 32, 32]⟩
abbrev S1x8x32x32 : Shape := ⟨4, ![1, 8, 32, 32]⟩
abbrev S8192 : Shape := ⟨1, ![8192]⟩
abbrev S8192x8192 : Shape := ⟨2, ![8192, 8192]⟩
abbrev S8192x1 : Shape := ⟨2, ![8192, 1]⟩
abbrev S8192x2 : Shape := ⟨2, ![8192, 2]⟩
abbrev S8192x8x32x32 : Shape := ⟨4, ![8192, 8, 32, 32]⟩
abbrev S8256x8x32x32 : Shape := ⟨4, ![8256, 8, 32, 32]⟩

abbrev nBuf : Space → Nat
  | .hbm => 105
  | .vmem => 0
  | .smem => 0
  | _ => 0

abbrev bufTy : (tb : Table) → Fin (tcTables nBuf tb) → BufTy
  | .hbm, ⟨0, _⟩ => ⟨S64x8x32x32, .f32⟩
  | .hbm, ⟨1, _⟩ => ⟨S63x8x32x32, .f32⟩
  | .hbm, ⟨2, _⟩ => ⟨S63x8x32x32, .f32⟩
  | .hbm, ⟨3, _⟩ => ⟨S_, .f32⟩
  | .hbm, ⟨4, _⟩ => ⟨S8x32x32, .f32⟩
  | .hbm, ⟨5, _⟩ => ⟨S1x8x32x32, .f32⟩
  | .hbm, ⟨6, _⟩ => ⟨S8x32x32, .f32⟩
  | .hbm, ⟨7, _⟩ => ⟨S8x32x32, .f32⟩
  | .hbm, ⟨8, _⟩ => ⟨S1x8x32x32, .f32⟩
  | .hbm, ⟨9, _⟩ => ⟨S8x32x32, .f32⟩
  | .hbm, ⟨10, _⟩ => ⟨S8x32x32, .f32⟩
  | .hbm, ⟨11, _⟩ => ⟨S8x32x32, .f32⟩
  | .hbm, ⟨12, _⟩ => ⟨S_, .f32⟩
  | .hbm, ⟨13, _⟩ => ⟨S8x32x32, .f32⟩
  | .hbm, ⟨14, _⟩ => ⟨S8x32x32, .i1⟩
  | .hbm, ⟨15, _⟩ => ⟨S8x32x32, .f32⟩
  | .hbm, ⟨16, _⟩ => ⟨S_, .f32⟩
  | .hbm, ⟨17, _⟩ => ⟨S8x32x32, .f32⟩
  | .hbm, ⟨18, _⟩ => ⟨S8x32x32, .i1⟩
  | .hbm, ⟨19, _⟩ => ⟨S8x32x32, .f32⟩
  | .hbm, ⟨20, _⟩ => ⟨S8x32x32, .f32⟩
  | .hbm, ⟨21, _⟩ => ⟨S8x32x32, .f32⟩
  | .hbm, ⟨22, _⟩ => ⟨S8x32x32, .f32⟩
  | .hbm, ⟨23, _⟩ => ⟨S8x32x32, .f32⟩
  | .hbm, ⟨24, _⟩ => ⟨S8x32x32, .i1⟩
  | .hbm, ⟨25, _⟩ => ⟨S_, .f32⟩
  | .hbm, ⟨26, _⟩ => ⟨S_, .f32⟩
  | .hbm, ⟨27, _⟩ => ⟨S8x32x32, .f32⟩
  | .hbm, ⟨28, _⟩ => ⟨S8x32x32, .f32⟩
  | .hbm, ⟨29, _⟩ => ⟨S8x32x32, .f32⟩
  | .hbm, ⟨30, _⟩ => ⟨S8x32x32, .f32⟩
  | .hbm, ⟨31, _⟩ => ⟨S_, .f32⟩
  | .hbm, ⟨32, _⟩ => ⟨S8x32x32, .f32⟩
  | .hbm, ⟨33, _⟩ => ⟨S8x32x32, .f32⟩
  | .hbm, ⟨34, _⟩ => ⟨S8x32x32, .f32⟩
  | .hbm, ⟨35, _⟩ => ⟨S8x32x32, .f32⟩
  | .hbm, ⟨36, _⟩ => ⟨S_, .f32⟩
  | .hbm, ⟨37, _⟩ => ⟨S8x32x32, .f32⟩
  | .hbm, ⟨38, _⟩ => ⟨S8x32x32, .f32⟩
  | .hbm, ⟨39, _⟩ => ⟨S1x8x32x32, .f32⟩
  | .hbm, ⟨40, _⟩ => ⟨S8x32x32, .f32⟩
  | .hbm, ⟨41, _⟩ => ⟨S8x32x32, .f32⟩
  | .hbm, ⟨42, _⟩ => ⟨S8x32x32, .f32⟩
  | .hbm, ⟨43, _⟩ => ⟨S8x32x32, .f32⟩
  | .hbm, ⟨44, _⟩ => ⟨S1x8x32x32, .f32⟩
  | .hbm, ⟨45, _⟩ => ⟨S8x32x32, .f32⟩
  | .hbm, ⟨46, _⟩ => ⟨S8x32x32, .f32⟩
  | .hbm, ⟨47, _⟩ => ⟨S8x32x32, .f32⟩
  | .hbm, ⟨48, _⟩ => ⟨S63x8x32x32, .f32⟩
  | .hbm, ⟨49, _⟩ => ⟨S8x32x32, .f32⟩
  | .hbm, ⟨50, _⟩ => ⟨S8x32x32, .f32⟩
  | .hbm, ⟨51, _⟩ => ⟨S1x8x32x32, .f32⟩
  | .hbm, ⟨52, _⟩ => ⟨S63x8x32x32, .f32⟩
  | .hbm, ⟨53, _⟩ => ⟨S63x8x32x32, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .i1⟩
  | .hbm, ⟨58, _⟩ => ⟨S_, .f32⟩
  | .hbm, ⟨59, _⟩ => ⟨S8x32x32, .f32⟩
  | .hbm, ⟨60, _⟩ => ⟨S8x32x32, .f32⟩
  | .hbm, ⟨61, _⟩ => ⟨S8192, .f32⟩
  | .hbm, ⟨62, _⟩ => ⟨S8192, .i32⟩
  | .hbm, ⟨63, _⟩ => ⟨S_, .i32⟩
  | .hbm, ⟨64, _⟩ => ⟨S_, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S_, .i32⟩
  | .hbm, ⟨75, _⟩ => ⟨S8192, .i32⟩
  | .hbm, ⟨76, _⟩ => ⟨S8192, .i32⟩
  | .hbm, ⟨77, _⟩ => ⟨S_, .f32⟩
  | .hbm, ⟨78, _⟩ => ⟨S8192x8192, .f32⟩
  | .hbm, ⟨79, _⟩ => ⟨S8192, .i32⟩
  | .hbm, ⟨80, _⟩ => ⟨S_, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S_, .i32⟩
  | .hbm, ⟨85, _⟩ => ⟨S8192, .i32⟩
  | .hbm, ⟨86, _⟩ => ⟨S8192, .i1⟩
  | .hbm, ⟨87, _⟩ => ⟨S_, .i32⟩
  | .hbm, ⟨88, _⟩ => ⟨S8192, .i32⟩
  | .hbm, ⟨89, _⟩ => ⟨S8192, .i32⟩
  | .hbm, ⟨90, _⟩ => ⟨S8192, .i32⟩
  | .hbm, ⟨91, _⟩ => ⟨S_, .i32⟩
  | .hbm, ⟨92, _⟩ => ⟨S8192, .i32⟩
  | .hbm, ⟨93, _⟩ => ⟨S8192, .i1⟩
  | .hbm, ⟨94, _⟩ => ⟨S_, .i32⟩
  | .hbm, ⟨95, _⟩ => ⟨S8192, .i32⟩
  | .hbm, ⟨96, _⟩ => ⟨S8192, .i32⟩
  | .hbm, ⟨97, _⟩ => ⟨S8192, .i32⟩
  | .hbm, ⟨98, _⟩ => ⟨S8192x1, .i32⟩
  | .hbm, ⟨99, _⟩ => ⟨S8192x1, .i32⟩
  | .hbm, ⟨100, _⟩ => ⟨S8192x2, .i32⟩
  | .hbm, ⟨101, _⟩ => ⟨S8192x8192, .f32⟩
  | .hbm, ⟨102, _⟩ => ⟨S1x8x32x32, .f32⟩
  | .hbm, ⟨103, _⟩ => ⟨S8192x8x32x32, .f32⟩
  | .hbm, ⟨104, _⟩ => ⟨S8256x8x32x32, .f32⟩
  | _, _ => ⟨S64x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call1_call0_c : Ref sig .tc := ⟨.hbm, 63, rfl⟩
abbrev main_call1_call0_v0 : Ref sig .tc := ⟨.hbm, 64, rfl⟩
abbrev main_v52 : Ref sig .tc := ⟨.hbm, 65, rfl⟩
abbrev main_c : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_c_8 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_call3_v0 : Ref sig .tc := ⟨.hbm, 81, rfl⟩
abbrev main_call3_v1 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S64x8x32x32_S63x8x32x32_1_0_0_0 : S64x8x32x32.Slices ![1, 0, 0, 0] S63x8x32x32
  reducesTo_S63x8x32x32_S8x32x32_d0 : S63x8x32x32.ReducesTo [0] S8x32x32
  h_S_ : 0 < S_.numel
  slices_S64x8x32x32_S1x8x32x32_0_0_0_0 : S64x8x32x32.Slices ![0, 0, 0, 0] S1x8x32x32
  shapeCasts_S1x8x32x32_S8x32x32 : S1x8x32x32.ShapeCasts S8x32x32
  bcast_S_S8x32x32 : S_.BroadcastsInDim S8x32x32 (![] : Fin 0 → Fin S8x32x32.rank)
  bcast_S8x32x32_S1x8x32x32_1_2_3 : S8x32x32.BroadcastsInDim S1x8x32x32 (![1, 2, 3] : Fin 3 → Fin S1x8x32x32.rank)
  bcast_S1x8x32x32_S63x8x32x32_0_1_2_3 : S1x8x32x32.BroadcastsInDim S63x8x32x32 (![0, 1, 2, 3] : Fin 4 → Fin S63x8x32x32.rank)
  shapeCasts_S8x32x32_S8192 : S8x32x32.ShapeCasts S8192
  bcast_S_S8192 : S_.BroadcastsInDim S8192 (![] : Fin 0 → Fin S8192.rank)
  natLt_1_32 : 1 < 32
  bcast_S_S_ : S_.BroadcastsInDim S_ (![] : Fin 0 → Fin S_.rank)
  reduceWindows_S8192_S8192_w8192s1p8191_0 : S8192.ReduceWindows (![8192] : Fin 1 → Nat) ![1] ![8191] ![0] S8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  shapeCasts_S8192x8192_S8192x8x32x32 : S8192x8192.ShapeCasts S8192x8x32x32
  concatenates_S1x8x32x32_S63x8x32x32_S8192x8x32x32_S8256x8x32x32_d0 : Shape.Concatenates [S1x8x32x32, S63x8x32x32, S8192x8x32x32] S8256x8x32x32 0
  scatter_S8192x8192_S8192x2_S8192_n_01_01_1_wf : ScatterDims.WF S8192x8192 S8192x2 S8192 [] [0, 1] [0, 1] 1

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.Spec.lean ====
/-
  The mathematics both programs compute, stated once over the extended reals.

  The input is a zonotope X of 64 rows over 8192 content positions (the trailing axes 8 x 32 x 32 read
  row-major): row 0 is the centre a, rows 1..63 are error terms, and e = sum over the error rows of |x| is the
  radius at a position.  With lower = a - e and upper = a + e, a position "crosses" when lower * upper < 0 and is
  "non-negative" when lower >= 0.  The slope lam, the offset delta, the new centre (head) and the scale of the old
  error terms (body weight) are the usual ReLU-zonotope quantities.  The result stacks the head row, the 63 scaled
  error rows and 8192 new error rows: new row r holds delta/2 at position q exactly when q is the (r+1)-th crossing
  position in flat order (row index = clamp(cumsum(cross) - 1)), and zero elsewhere.

  Each scalar function is given twice, once in each program's own order of operations (suffix K: the kernel's,
  suffix R: the reference's).  They differ in three places: c * (u / d) against (c * u) / d; 0 - lam against
  -lam; (delta/2) * c against "delta/2 if c > 0 else 0".  The first pair differs in value only when c = 0 and
  d = 0 (0 * anything = 0, but 0 / 0 is the bottom element), and every later use of lam is multiplied by c.
-/
import Idealize.ShloMosaic.PureOps.Ideal
import Idealize.ShloMosaic.Lib.ValueIdx
import Idealize.ShloMosaic.Lib.Pipeline.Value

noncomputable section

namespace Cert.Zono

open Idealize.ShloMosaic Idealize.ShloMosaic.ValueIdx

abbrev SX : Shape := ⟨4, ![64, 8, 32, 32]⟩
abbrev S2 : Shape := ⟨2, ![64, 8192]⟩
abbrev SF : Shape := ⟨1, ![8192]⟩
abbrev SR : Shape := ⟨2, ![1, 8192]⟩
abbrev S0 : Shape := ⟨0, ![]⟩
abbrev SO2 : Shape := ⟨2, ![8256, 8192]⟩
abbrev SO : Shape := ⟨4, ![8256, 8, 32, 32]⟩

/-! ## The float constants, as the words both programs print -/
abbrev Z : EReal := Ideal.ofBits .f32 0x00000000#32
abbrev HALF : EReal := Ideal.ofBits .f32 0x3F000000#32
abbrev ONE : EReal := Ideal.ofBits .f32 0x3F800000#32
abbrev TWO : EReal := Ideal.ofBits .f32 0x40000000#32

/-! ## One content position: centre a, radius e -/
def up (a e : EReal) : EReal := a + e
def lo (a e : EReal) : EReal := a - e

/-! ### In the kernel's order of operations -/
def crK (a e : EReal) : EReal := ((((Ideal.cmp .olt (lo a e * up a e) Z).setWidth 32).toInt : ℝ) : EReal)
def nnK (a e : EReal) : EReal := ((((Ideal.cmp .oge (lo a e) Z).setWidth 32).toInt : ℝ) : EReal)
def lam0K (a e : EReal) : EReal := nnK a e + crK a e * Ideal.div (up a e) (up a e - lo a e)
def lamK (a e : EReal) : EReal := Scalar.select (Ideal.cmp .one (lam0K a e) (lam0K a e)) HALF (lam0K a e)
def delK (a e : EReal) : EReal := max ((Z - lamK a e) * lo a e) ((ONE - lamK a e) * up a e)
def headK (a e : EReal) : EReal := (Ideal.div (delK a e) TWO + lamK a e * a) * crK a e + a * nnK a e
def wK (a e : EReal) : EReal := lamK a e * crK a e + nnK a e
def dhK (a e : EReal) : EReal := Ideal.div (delK a e) TWO
def valK (a e : EReal) : EReal := dhK a e * crK a e
def ciK (a e : EReal) : BitVec 32 := Ideal.fptosi 32 (crK a e)

/-! ### In the reference's order of operations -/
def crR (a e : EReal) : EReal := (((Ideal.cmp .olt (lo a e * up a e) Z).toNat : ℝ) : EReal)
def nnR (a e : EReal) : EReal := (((Ideal.cmp .oge (lo a e) Z).toNat : ℝ) : EReal)
def lam0R (a e : EReal) : EReal := nnR a e + Ideal.div (crR a e * up a e) (up a e - lo a e)
def lamR (a e : EReal) : EReal := Scalar.select (Ideal.cmp .une (lam0R a e) (lam0R a e)) HALF (lam0R a e)
def delR (a e : EReal) : EReal := max ((-(lamR a e)) * lo a e) ((ONE - lamR a e) * up a e)
def headR (a e : EReal) : EReal := (Ideal.div (delR a e) TWO + lamR a e * a) * crR a e + a * nnR a e
def wR (a e : EReal) : EReal := lamR a e * crR a e + nnR a e
def dhR (a e : EReal) : EReal := Ideal.div (delR a e) TWO
def condR (a e : EReal) : BitVec 1 := Ideal.cmp .ogt (crR a e) Z
def valR (a e : EReal) : EReal := Scalar.select (condR a e) (dhR a e) Z
def ciR (a e : EReal) : BitVec 32 := (condR a e).setWidth 32

/-! ## The arrays -/

/-- The centre at position q of a [64, 8192] array. -/
def a2 (x : S2.Idx → EReal) (q : Fin 8192) : EReal := x (ix2 (0 : Fin 64) q)
/-- Error term e (row e + 1) at position q. -/
def xe2 (x : S2.Idx → EReal) (e : Fin 63) (q : Fin 8192) : EReal := x (ix2 (⟨e.val + 1, by omega⟩ : Fin 64) q)
/-- The radius at position q: the sum of the error terms' absolute values. -/
def er2 (x : S2.Idx → EReal) (q : Fin 8192) : EReal := ∑ e : Fin 63, max (xe2 x e q) (-(xe2 x e q))

/-- Head row and scaled error rows, [64, 8192]. -/
def hb2 (x : S2.Idx → EReal) : S2.Idx → EReal := fun i =>
  if (i 0).val = 0 then headK (a2 x (i 1)) (er2 x (i 1)) else x i * wK (a2 x (i 1)) (er2 x (i 1))
/-- The crossing mask as 32-bit words, flat. -/
def ci2 (x : S2.Idx → EReal) : IVec SF 32 := fun q => ciK (a2 x (q 0)) (er2 x (q 0))
/-- The value a crossing position contributes to its new error row, flat. -/
def val2 (x : S2.Idx → EReal) : SF.Idx → EReal := fun q => valK (a2 x (q 0)) (er2 x (q 0))

/-- Target rows from the mask: inclusive prefix sum, minus one, clamped to [0, 8191] (signed).  The same three host
    operations in both programs; kept as one function of the mask. -/
def rowsOf (hrw : SF.ReduceWindows (![8192] : Fin 1 → Nat) ![1] ![8191] ![0] SF) (h0 : 0 < S0.numel)
    (hb0 : S0.BroadcastsInDim S0 (![] : Fin 0 → Fin S0.rank)) (hb : S0.BroadcastsInDim SF (![] : Fin 0 → Fin SF.rank))
    (ci : IVec SF 32) : IVec SF 32 :=
  minsi (broadcastInDim SF ![] hb (constantI S0 32 8191#32))
    (maxsi (broadcastInDim SF ![] hb (constantI S0 32 0#32))
      (subi (Host.reduceWindow IntOp.addi ![8192] ![1] ![8191] ![0] ci (broadcastInDim S0 ![] hb0 (constantI S0 32 0#32)) hrw h0)
        (broadcastInDim SF ![] hb (constantI S0 32 1#32))))

/-- The stacked result, [8256, 8192]: rows 0..63 are `hb`; row 64 + r holds `vals q` at column q when
    `rows q` is the word r, else zero. -/
def OUT2 (hb : S2.Idx → EReal) (rows : IVec SF 32) (vals : SF.Idx → EReal) : SO2.Idx → EReal := fun i =>
  if h : (i 0).val < 64 then hb (ix2 (⟨(i 0).val, h⟩ : Fin 64) (i 1))
  else Scalar.select (IntOp.cmpi .eq (BitVec.ofNat 32 ((i 0).val - 64)) (rows (ix1 (i 1)))) (vals (ix1 (i 1))) Z

/-- The same with the row table and the values given as [1, 8192] rows (the layout the second kernel reads). -/
def OUT2r (hb : S2.Idx → EReal) (rows : IVec SR 32) (vals : SR.Idx → EReal) : SO2.Idx → EReal := fun i =>
  if h : (i 0).val < 64 then hb (ix2 (⟨(i 0).val, h⟩ : Fin 64) (i 1))
  else Scalar.select (IntOp.cmpi .eq (BitVec.ofNat 32 ((i 0).val - 64)) (rows (ix2 (0 : Fin 1) (i 1)))) (vals (ix2 (0 : Fin 1) (i 1))) Z

/-- The input with its three trailing axes merged (row-major). -/
def x2 (X : SX.Idx → EReal) : S2.Idx → EReal := shapeCast S2 X (by decide)

/-- The whole result as a function of the input, [8256, 8, 32, 32]. -/
def SPEC (hrw : SF.ReduceWindows (![8192] : Fin 1 → Nat) ![1] ![8191] ![0] SF) (h0 : 0 < S0.numel)
    (hb0 : S0.BroadcastsInDim S0 (![] : Fin 0 → Fin S0.rank)) (hb : S0.BroadcastsInDim SF (![] : Fin 0 → Fin SF.rank))
    (X : SX.Idx → EReal) : SO.Idx → EReal :=
  shapeCast SO (OUT2 (hb2 (x2 X)) (rowsOf hrw h0 hb0 hb (ci2 (x2 X))) (val2 (x2 X))) (by decide)

end Cert.Zono

end
-- ==== Proof.KReg0.lean ====
/-
  The first kernel's three results as whole arrays.

  Its grid has one point and every window's block is its whole array, so each result array after the region is
  what the body's one store of that window wrote: a pure function of the input array as the region found it, which
  is the argument with its trailing axes merged.
-/
import proofs.«160533_j26998164423204_1_alg».proof.Proof.Gen.KernelIdeal.Frame
import proofs.«160533_j26998164423204_1_alg».proof.Proof.Spec
import Idealize.ShloMosaic.Lib.Pipeline.Value
import Idealize.ShloMosaic.Lib.StableHlo.Run
set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The first kernel's input is the argument with its three trailing axes merged. -/
theorem V1_v0 (c : Dev nD) :
    (V1 m ρ c main_v0 : S64x8192.Idx → EReal)
      = shapeCast S64x8192 (m ((c.tc : Thread nD τ).loc main_arg0)) shapeCasts_S64x8x32x32_S64x8192 := by
  dsimp only [V1, W1, hostOps0]
  after_results
  rfl

/-- The offset of every access of the first kernel: zero on both axes. -/
theorem zeros2 : (![0, 0] : Fin 2 → Nat) = fun _ => 0 := funext fun a => by
  match a with
  | ⟨0, _⟩ => rfl
  | ⟨1, _⟩ => rfl

/-- Every window's block index is zero on both axes at every point of the grid (it has one point). -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

section
-- the buffer contents when the region is entered, as a parameter
variable (V : (c : Dev nD) → (b : Ref sig .tc) → Buf (Elt Ideal) ((c : Thread nD τ).loc b))

/-- The input window's one block sits at offset 0 on both axes, so an index inside the block is the same index of the array. -/
theorem emb0_0 (t : Fin cfg0.N) (j : S64x8192.Idx) : ((cfg0.win 0).blk t).view.emb j = j := by
  obtain ⟨e0, e1, -⟩ := idx0 t
  funext a; apply Fin.ext
  match a with
  | ⟨0, _⟩ => show win0_0.index t (0 : Fin 2) * 64 + 1 * (j 0).val = (j 0).val; omega
  | ⟨1, _⟩ => show win0_0.index t (1 : Fin 2) * 8192 + 1 * (j 1).val = (j 1).val; omega

/-- The input window's block is its whole array. -/
theorem iblk0_whole (c : Dev nD) (t : Fin cfg0.N) :
    (iblk0 V c 0 t : S64x8192.Idx → EReal) = V c main_v0 := by
  funext j
  show V c main_v0 (((cfg0.win 0).blk t).view.emb j) = V c main_v0 j
  rw [emb0_0]

/-- Window 1's one block sits at offset 0 on both axes, so an index inside the block is the same index of the array. -/
theorem emb0_1 (t : Fin cfg0.N) (j : S64x8192.Idx) : ((cfg0.win 1).blk t).view.emb j = j := by
  obtain ⟨-, -, e0, e1, -⟩ := idx0 t
  funext a; apply Fin.ext
  match a with
  | ⟨0, _⟩ => show win0_1.index t (0 : Fin 2) * 64 + 1 * (j 0).val = (j 0).val; omega
  | ⟨1, _⟩ => show win0_1.index t (1 : Fin 2) * 8192 + 1 * (j 1).val = (j 1).val; omega

/-- Reading window 1's block off a whole-array function gives that function back. -/
theorem read0_1 (t : Fin cfg0.N) (G : S64x8192.Idx → EReal) :
    (((cfg0.win 1).blk t).view.read (Elt Ideal) G : S64x8192.Idx → EReal) = G := by
  funext j
  show G (((cfg0.win 1).blk t).view.emb j) = G j
  rw [emb0_1]

/-- What the only point writes back of window 1 is the whole of result 0's payload of the input array. -/
theorem flushed0_1 (c : Dev nD) (t : Fin cfg0.N) :
    (dat0 V c).flushed 1 t = ((cfg0.win 1).blk t).view.read (Elt Ideal) (k0_pay11 (F := Ideal) (V c main_v0)) := by
  show (cfg0.win 1).cut (grid0.coords t) ((dat0 V c).after 1 t) = _
  rw [after0_1]
  unfold out0_1
  rw [View.canon_unit_zero zeros2]
  simp only [View.ld_unit_zero (S := S64x8192) zeros2]
  rw [iblk0_whole, read0_1]
  rfl

/-- Every index of window 1's array is in the one block. -/
theorem mem0_1 (t : Fin cfg0.N) (i : S64x8192.Idx) : i ∈ ((cfg0.win 1).blk t).view.set := by
  show i ∈ ((View.whole main_v1_0).slice (win0_1.rect t)).set
  rw [View.set_slice_whole, Rect.mem_set_unit]
  obtain ⟨-, -, e0, e1, -⟩ := idx0 t
  intro a
  match a with
  | ⟨0, _⟩ => show win0_1.index t (0 : Fin 2) * 64 ≤ (i 0).val ∧ (i 0).val < win0_1.index t (0 : Fin 2) * 64 + 64; have hi : (i 0).val < 64 := (i 0).isLt; omega
  | ⟨1, _⟩ => show win0_1.index t (1 : Fin 2) * 8192 ≤ (i 1).val ∧ (i 1).val < win0_1.index t (1 : Fin 2) * 8192 + 8192; have hi : (i 1).val < 8192 := (i 1).isLt; omega

/-- Window 1's array after the region: the one block covers it, so it holds what that block's store wrote. -/
theorem final0_1 (c : Dev nD) : (dat0 V c).arrAt 1 cfg0.N = k0_pay11 (F := Ideal) (V c main_v0) :=
  (dat0 V c).arrAt_eq_of_cover 1 (k0_pay11 (F := Ideal) (V c main_v0)) (fun t _ => flushed0_1 V c t)
    (fun i => ⟨t0_0, flush0_1 t0_0, mem0_1 t0_0 i⟩)

/-- Window 2's one block sits at offset 0 on both axes, so an index inside the block is the same index of the array. -/
theorem emb0_2 (t : Fin cfg0.N) (j : S1x8192.Idx) : ((cfg0.win 2).blk t).view.emb j = j := by
  obtain ⟨-, -, -, -, e0, e1, -⟩ := idx0 t
  funext a; apply Fin.ext
  match a with
  | ⟨0, _⟩ => show win0_2.index t (0 : Fin 2) * 1 + 1 * (j 0).val = (j 0).val; omega
  | ⟨1, _⟩ => show win0_2.index t (1 : Fin 2) * 8192 + 1 * (j 1).val = (j 1).val; omega

/-- Reading window 2's block off a whole-array function gives that function back. -/
theorem read0_2 (t : Fin cfg0.N) (G : S1x8192.Idx → EReal) :
    (((cfg0.win 2).blk t).view.read (Elt Ideal) G : S1x8192.Idx → EReal) = G := by
  funext j
  show G (((cfg0.win 2).blk t).view.emb j) = G j
  rw [emb0_2]

/-- What the only point writes back of window 2 is the whole of result 1's payload of the input array. -/
theorem flushed0_2 (c : Dev nD) (t : Fin cfg0.N) :
    (dat0 V c).flushed 2 t = ((cfg0.win 2).blk t).view.read (Elt Ideal) (k0_pay7 (F := Ideal) (V c main_v0)) := by
  show (cfg0.win 2).cut (grid0.coords t) ((dat0 V c).after 2 t) = _
  rw [after0_2]
  unfold out0_2
  rw [View.canon_unit_zero zeros2]
  simp only [View.ld_unit_zero (S := S64x8192) zeros2]
  rw [iblk0_whole, read0_2]
  rfl

/-- Every index of window 2's array is in the one block. -/
theorem mem0_2 (t : Fin cfg0.N) (i : S1x8192.Idx) : i ∈ ((cfg0.win 2).blk t).view.set := by
  show i ∈ ((View.whole main_v1_1).slice (win0_2.rect t)).set
  rw [View.set_slice_whole, Rect.mem_set_unit]
  obtain ⟨-, -, -, -, e0, e1, -⟩ := idx0 t
  intro a
  match a with
  | ⟨0, _⟩ => show win0_2.index t (0 : Fin 2) * 1 ≤ (i 0).val ∧ (i 0).val < win0_2.index t (0 : Fin 2) * 1 + 1; have hi : (i 0).val < 1 := (i 0).isLt; omega
  | ⟨1, _⟩ => show win0_2.index t (1 : Fin 2) * 8192 ≤ (i 1).val ∧ (i 1).val < win0_2.index t (1 : Fin 2) * 8192 + 8192; have hi : (i 1).val < 8192 := (i 1).isLt; omega

/-- Window 2's array after the region: the one block covers it, so it holds what that block's store wrote. -/
theorem final0_2 (c : Dev nD) : (dat0 V c).arrAt 2 cfg0.N = k0_pay7 (F := Ideal) (V c main_v0) :=
  (dat0 V c).arrAt_eq_of_cover 2 (k0_pay7 (F := Ideal) (V c main_v0)) (fun t _ => flushed0_2 V c t)
    (fun i => ⟨t0_0, flush0_2 t0_0, mem0_2 t0_0 i⟩)

/-- Window 3's one block sits at offset 0 on both axes, so an index inside the block is the same index of the array. -/
theorem emb0_3 (t : Fin cfg0.N) (j : S1x8192.Idx) : ((cfg0.win 3).blk t).view.emb j = j := by
  obtain ⟨-, -, -, -, -, -, e0, e1⟩ := idx0 t
  funext a; apply Fin.ext
  match a with
  | ⟨0, _⟩ => show win0_3.index t (0 : Fin 2) * 1 + 1 * (j 0).val = (j 0).val; omega
  | ⟨1, _⟩ => show win0_3.index t (1 : Fin 2) * 8192 + 1 * (j 1).val = (j 1).val; omega

/-- Reading window 3's block off a whole-array function gives that function back. -/
theorem read0_3 (t : Fin cfg0.N) (G : S1x8192.Idx → EReal) :
    (((cfg0.win 3).blk t).view.read (Elt Ideal) G : S1x8192.Idx → EReal) = G := by
  funext j
  show G (((cfg0.win 3).blk t).view.emb j) = G j
  rw [emb0_3]

/-- What the only point writes back of window 3 is the whole of result 2's payload of the input array. -/
theorem flushed0_3 (c : Dev nD) (t : Fin cfg0.N) :
    (dat0 V c).flushed 3 t = ((cfg0.win 3).blk t).view.read (Elt Ideal) (k0_pay1 (F := Ideal) (k0_pay10 (V c main_v0))) := by
  show (cfg0.win 3).cut (grid0.coords t) ((dat0 V c).after 3 t) = _
  rw [after0_3]
  unfold out0_3
  rw [View.canon_unit_zero zeros2]
  simp only [View.ld_unit_zero (S := S64x8192) zeros2]
  rw [iblk0_whole, read0_3]
  rfl

/-- Every index of window 3's array is in the one block. -/
theorem mem0_3 (t : Fin cfg0.N) (i : S1x8192.Idx) : i ∈ ((cfg0.win 3).blk t).view.set := by
  show i ∈ ((View.whole main_v1_2).slice (win0_3.rect t)).set
  rw [View.set_slice_whole, Rect.mem_set_unit]
  obtain ⟨-, -, -, -, -, -, e0, e1⟩ := idx0 t
  intro a
  match a with
  | ⟨0, _⟩ => show win0_3.index t (0 : Fin 2) * 1 ≤ (i 0).val ∧ (i 0).val < win0_3.index t (0 : Fin 2) * 1 + 1; have hi : (i 0).val < 1 := (i 0).isLt; omega
  | ⟨1, _⟩ => show win0_3.index t (1 : Fin 2) * 8192 ≤ (i 1).val ∧ (i 1).val < win0_3.index t (1 : Fin 2) * 8192 + 8192; have hi : (i 1).val < 8192 := (i 1).isLt; omega

/-- Window 3's array after the region: the one block covers it, so it holds what that block's store wrote. -/
theorem final0_3 (c : Dev nD) : (dat0 V c).arrAt 3 cfg0.N = k0_pay1 (F := Ideal) (k0_pay10 (V c main_v0)) :=
  (dat0 V c).arrAt_eq_of_cover 3 (k0_pay1 (F := Ideal) (k0_pay10 (V c main_v0))) (fun t _ => flushed0_3 V c t)
    (fun i => ⟨t0_0, flush0_3 t0_0, mem0_3 t0_0 i⟩)

end

/-- Result 0 (head row and scaled error rows). -/
theorem V2_v1_0 (c : Dev nD) :
    (V2 m ρ c main_v1_0 : S64x8192.Idx → EReal) = k0_pay11 (F := Ideal) (V1 m ρ c main_v0) :=
  (W2_arr m ρ c 1).trans (final0_1 (V1 m ρ) c)

/-- Result 1 (the crossing mask as floats). -/
theorem V2_v1_1 (c : Dev nD) :
    (V2 m ρ c main_v1_1 : S1x8192.Idx → EReal) = k0_pay7 (F := Ideal) (V1 m ρ c main_v0) :=
  (W2_arr m ρ c 2).trans (final0_2 (V1 m ρ) c)

/-- Result 2 (half the offset). -/
theorem V2_v1_2 (c : Dev nD) :
    (V2 m ρ c main_v1_2 : S1x8192.Idx → EReal) = k0_pay1 (F := Ideal) (k0_pay10 (V1 m ρ c main_v0)) :=
  (W2_arr m ρ c 3).trans (final0_3 (V1 m ρ) c)

end Cert.KernelIdeal.KVal

end
-- ==== Proof.KGlue.lean ====
/-
  The host operations between the two kernels.

  The mask and the half offsets are flattened; their product is the value row; the mask converted to words goes
  through the prefix sum, minus one, clamp; both are given back a leading unit axis.  The head-and-body array is
  not touched.
-/
import proofs.«160533_j26998164423204_1_alg».proof.Proof.Gen.KernelIdeal.Frame
import proofs.«160533_j26998164423204_1_alg».proof.Proof.Spec
import Idealize.ShloMosaic.Lib.StableHlo.Run
set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## One stretch at a time, over any contents before it

Each lemma reads one buffer after one stretch of host operations as that stretch's own function of the buffers the
stretch reads; the contents before the stretch are arbitrary. -/

section Stretch

variable {F : FTy → Type} [FloatOps F] (V : Valuation τ sig (Elt F))

/-- The mask, flattened and converted to words. -/
private theorem flat_words : (StableHlo.after hostOps1 V (Proc.devRef .tc main_v5) : IVec S8192 32)
    = fptosi 32 (shapeCast S8192 (V (Proc.devRef .tc main_v1_1) : FVec F S1x8192 .f32) shapeCasts_S1x8192_S8192 : FVec F S8192 .f32) := by
  after_results
  rfl

/-- The inclusive prefix sum of the words: a window of 8192 ending at each position, padded with zeros on the left. -/
private theorem prefix_sum : (StableHlo.after hostOps1_1 V (Proc.devRef .tc main_v6) : IVec S8192 32)
    = Host.reduceWindow IntOp.addi ![8192] ![1] ![8191] ![0] (V (Proc.devRef .tc main_v5) : IVec S8192 32)
        (broadcastInDim S_ ![] bcast_S_S_ (constantI S_ 32 0#32)) reduceWindows_S8192_S8192_w8192s1p8191_0 h_S_ := by
  after_results
  simp only [StableHlo.TRef.ofBuf, StableHlo.TRef.toBuf, cast_eq]

/-- Minus one at every position. -/
private theorem minus_one : (StableHlo.after hostOps1_2 V (Proc.devRef .tc main_v8) : IVec S8192 32)
    = subi (V (Proc.devRef .tc main_v6) : IVec S8192 32) (broadcastInDim S8192 ![] bcast_S_S8192 (constantI S_ 32 1#32)) := by
  after_results

/-- The clamp's lower bound, the word 0. -/
private theorem bound_lo : (StableHlo.after hostOps1_2 V (Proc.devRef .tc main_c_0) : IVec S_ 32) = constantI S_ 32 0#32 := by
  after_results

/-- The clamp's upper bound, the word 8191. -/
private theorem bound_hi : (StableHlo.after hostOps1_2 V (Proc.devRef .tc main_c_1) : IVec S_ 32) = constantI S_ 32 8191#32 := by
  after_results

/-- The clamp: the smaller of the upper bound and (the larger of the lower bound and the value), signed. -/
private theorem clamp : (StableHlo.after hostOps1_3 V (Proc.devRef .tc main_v9) : IVec S8192 32)
    = minsi (broadcastInDim S8192 ![] bcast_S_S8192 (V (Proc.devRef .tc main_c_1) : IVec S_ 32))
        (maxsi (broadcastInDim S8192 ![] bcast_S_S8192 (V (Proc.devRef .tc main_c_0) : IVec S_ 32))
          (V (Proc.devRef .tc main_v8) : IVec S8192 32)) := by
  after_results
  rfl

/-- The clamped words given a leading unit axis. -/
private theorem as_row : (StableHlo.after hostOps1_4 V (Proc.devRef .tc main_v10) : IVec S1x8192 32)
    = shapeCast S1x8192 (V (Proc.devRef .tc main_v9) : IVec S8192 32) shapeCasts_S8192_S1x8192 := by
  after_results
  rfl

end Stretch

/-- The head-and-body array reaches the second kernel as the first left it: no host operation between the two
    kernels writes it. -/
theorem V7_v1_0 (c : Dev nD) : (V7 m ρ c main_v1_0 : S64x8192.Idx → EReal) = V2 m ρ c main_v1_0 := by
  show StableHlo.after hostOps1_4 (StableHlo.after hostOps1_3 (StableHlo.after hostOps1_2 (StableHlo.after hostOps1_1 (StableHlo.after hostOps1 (W2 m ρ c))))) (Proc.devRef .tc main_v1_0) = _
  simp only [hostOps1, hostOps1_1, hostOps1_2, hostOps1_3, hostOps1_4]
  after_results

/-- The row table: the mask flattened, converted to words, prefix-summed, minus one, clamped, as a [1, 8192] row. -/
theorem V7_v10 (c : Dev nD) :
    (V7 m ρ c main_v10 : S1x8192.Idx → BitVec 32)
      = shapeCast S1x8192 (Cert.Zono.rowsOf reduceWindows_S8192_S8192_w8192s1p8191_0 h_S_ bcast_S_S_ bcast_S_S8192
          (fptosi 32 (shapeCast S8192 (V2 m ρ c main_v1_1 : S1x8192.Idx → EReal) shapeCasts_S1x8192_S8192 : FVec Ideal S8192 .f32)))
          shapeCasts_S8192_S1x8192 := by
  show StableHlo.after hostOps1_4 (StableHlo.after hostOps1_3 (StableHlo.after hostOps1_2 (StableHlo.after hostOps1_1 (StableHlo.after hostOps1 (W2 m ρ c))))) (Proc.devRef .tc main_v10) = _
  rw [as_row, clamp, bound_hi, bound_lo, minus_one, prefix_sum, flat_words]
  rfl

/-- The value row: half offset times mask, as a [1, 8192] row. -/
theorem V7_v11 (c : Dev nD) :
    (V7 m ρ c main_v11 : S1x8192.Idx → EReal)
      = shapeCast S1x8192 (mulf (shapeCast S8192 (V2 m ρ c main_v1_2 : S1x8192.Idx → EReal) shapeCasts_S1x8192_S8192 : FVec Ideal S8192 .f32)
          (shapeCast S8192 (V2 m ρ c main_v1_1 : S1x8192.Idx → EReal) shapeCasts_S1x8192_S8192)) shapeCasts_S8192_S1x8192 := by
  show StableHlo.after hostOps1_4 (StableHlo.after hostOps1_3 (StableHlo.after hostOps1_2 (StableHlo.after hostOps1_1 (StableHlo.after hostOps1 (W2 m ρ c))))) (Proc.devRef .tc main_v11) = _
  simp only [hostOps1, hostOps1_1, hostOps1_2, hostOps1_3, hostOps1_4]
  after_results
  rfl

end Cert.KernelIdeal.KVal

end
-- ==== Proof.KReg1.lean ====
/-
  The second kernel's result as a whole array, and the program's result.

  Grid point 0 copies the head-and-body block into rows 0..63; grid point p >= 1 writes rows 64p..64p+63, where
  row 64p + j holds the value row's entry at column q when the row table's entry at q is the word 64(p-1) + j, and
  zero elsewhere.  The 129 blocks tile the [8256, 8192] array, so the array after the region is one function of the
  three inputs.  The program's result is that array with its column axis split into 8 x 32 x 32.
-/
import proofs.«160533_j26998164423204_1_alg».proof.Proof.Gen.KernelIdeal.Frame
import proofs.«160533_j26998164423204_1_alg».proof.Proof.Spec
import Idealize.ShloMosaic.Lib.Pipeline.Value
import Idealize.ShloMosaic.Lib.StableHlo.Run
set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat Cfg Window)

private theorem hz2 : (![0, 0] : Fin 2 → Nat) = fun _ => 0 := funext fun a => by fin_cases a <;> rfl

/-- At grid point 0 the body leaves, in the result's staging buffer, the head-and-body block it loaded. -/
private theorem out_A {F : FTy → Type} [FloatOps F] (c : Dev nD) (i : grid1.Coords)
    (a1 : Memref sig .tc .vmem S64x8192 .f32) (h1 : a1.IsWhole) (a2 : Memref sig .tc .vmem S1x8192 .i32) (h2 : a2.IsWhole)
    (a3 : Memref sig .tc .vmem S1x8192 .f32) (h3 : a3.IsWhole) (a4 : Memref sig .tc .vmem S64x8192 .f32) (h4 : a4.IsWhole)
    (hc0 : cond1_0 i) (hc1 : ¬cond1_1 i)
    (x0 : Vec F S64x8192 .f32) (x1 : Vec F S1x8192 .i32) (x2 : Vec F S1x8192 .f32) :
    out1_A_3 c i a1 h1 a2 h2 a3 h3 a4 h4 hc0 hc1 x0 x1 x2 = x0 := by
  unfold out1_A_3
  rw [View.read_writes_eq_canon _ _ _ (cover1_A_3 c i a1 h1 a2 h2 a3 h3 a4 h4 hc0 hc1 x0 x1 x2)]
  unfold kernelRun1_A
  dsimp only
  sl_unfold_words
  rw [View.canon_unit_zero hz2]
  unfold k1_pay1
  simp only [View.readAt_eq_ld, h1.read_unread, View.ld_unit_zero (S := S64x8192) hz2, shapeCast_self]

/-- At a grid point p >= 1 the body leaves the selection block computed from the row table and the value row. -/
private theorem out_B {F : FTy → Type} [FloatOps F] (c : Dev nD) (i : grid1.Coords)
    (a1 : Memref sig .tc .vmem S64x8192 .f32) (h1 : a1.IsWhole) (a2 : Memref sig .tc .vmem S1x8192 .i32) (h2 : a2.IsWhole)
    (a3 : Memref sig .tc .vmem S1x8192 .f32) (h3 : a3.IsWhole) (a4 : Memref sig .tc .vmem S64x8192 .f32) (h4 : a4.IsWhole)
    (hc0 : ¬cond1_0 i) (hc1 : cond1_1 i)
    (x0 : Vec F S64x8192 .f32) (x1 : Vec F S1x8192 .i32) (x2 : Vec F S1x8192 .f32) :
    out1_B_3 c i a1 h1 a2 h2 a3 h3 a4 h4 hc0 hc1 x0 x1 x2 = k1_pay2 i x1 x2 := by
  unfold out1_B_3
  rw [View.read_writes_eq_canon _ _ _ (cover1_B_3 c i a1 h1 a2 h2 a3 h3 a4 h4 hc0 hc1 x0 x1 x2)]
  unfold kernelRun1_B
  dsimp only
  sl_unfold_words
  rw [View.canon_unit_zero hz2]
  simp only [View.readAt_eq_ld, h2.read_unread, h3.read_unread, View.ld_unit_zero (S := S1x8192) hz2]

/-- A [1, 8192] row broadcast over 64 rows reads, at (j, q), the row at q. -/
private theorem bc_row {α : Type} (v : S1x8192.Idx → α) (h : S1x8192.Broadcasts S64x8192) (j : Fin 64) (q : Fin 8192) :
    broadcastTo S64x8192 v h (ix2 j q) = v (ix2 (0 : Fin 1) q) := by
  refine broadcastTo_apply v h (ix2 j q) (ix2 (0 : Fin 1) q) fun ax => ?_
  match ax with
  | ⟨0, _⟩ => rfl
  | ⟨1, _⟩ => rfl

/-- A [64, 1] column broadcast over 8192 columns reads, at (j, q), the column at j. -/
private theorem bc_col {α : Type} (v : S64x1.Idx → α) (h : S64x1.Broadcasts S64x8192) (j : Fin 64) (q : Fin 8192) :
    broadcastTo S64x8192 v h (ix2 j q) = v (ix2 j (0 : Fin 1)) := by
  refine broadcastTo_apply v h (ix2 j q) (ix2 j (0 : Fin 1)) fun ax => ?_
  match ax with
  | ⟨0, _⟩ => rfl
  | ⟨1, _⟩ => rfl

/-- The selection block at (j, q): the value row's entry at q when the row table's entry at q is the word
    64 (p - 1) + j, zero otherwise. -/
private theorem pay2_apply (i : grid1.Coords) (x1 : Vec Ideal S1x8192 .i32) (x2 : Vec Ideal S1x8192 .f32)
    (j : Fin 64) (q : Fin 8192) :
    k1_pay2 (F := Ideal) i x1 x2 (ix2 j q)
      = Scalar.select (IntOp.cmpi .eq
          (Scalar.muli (Scalar.subi (BitVec.ofNat 32 (i 0).val) 1#32) 64#32 + BitVec.ofNat 32 j.val)
          (x1 (ix2 (0 : Fin 1) q))) (x2 (ix2 (0 : Fin 1) q)) Cert.Zono.Z := by
  unfold k1_pay2
  dsimp only
  simp only [shapeCast_self]
  show Scalar.select (IntOp.cmpi .eq
      (broadcastTo S64x8192 (addi (broadcast S64x1 (Scalar.muli (Scalar.subi (BitVec.ofNat 32 (i 0).val) 1#32) 64#32))
        (iota Kind.tc S64x1 32 [0] iota_S64x1_d0_w32)) broadcasts_S64x1_S64x8192 (ix2 j q))
      (broadcastTo S64x8192 x1 broadcasts_S1x8192_S64x8192 (ix2 j q)))
    (broadcastTo S64x8192 x2 broadcasts_S1x8192_S64x8192 (ix2 j q)) Cert.Zono.Z = _
  rw [bc_col, bc_row, bc_row]
  show Scalar.select (IntOp.cmpi .eq
      (Scalar.muli (Scalar.subi (BitVec.ofNat 32 (i 0).val) 1#32) 64#32
        + iota Kind.tc S64x1 32 [0] iota_S64x1_d0_w32 (ix2 j (0 : Fin 1))) _) _ _ = _
  rw [iota_single_apply]

/-- The kernel's row word: for 1 <= p <= 128 and j < 64, (p - 1) * 64 + j as 32-bit words is the word of 64 p + j - 64. -/
private theorem word_row (t j : Nat) (ht1 : 1 ≤ t) (ht : t < 129) (hj : j < 64) :
    Scalar.muli (Scalar.subi (BitVec.ofNat 32 t) 1#32) 64#32 + BitVec.ofNat 32 j = BitVec.ofNat 32 (64 * t + j - 64) := by
  show (BitVec.ofNat 32 t - 1#32) * 64#32 + BitVec.ofNat 32 j = _
  apply BitVec.eq_of_toNat_eq
  simp only [BitVec.toNat_add, BitVec.toNat_mul, BitVec.toNat_sub, BitVec.toNat_ofNat]
  omega

/-- The selection block at (j, q) at a grid point with first coordinate p, 1 <= p <= 128: the row word is 64 p + j - 64. -/
private theorem pay2_row (i : grid1.Coords) (x1 : Vec Ideal S1x8192 .i32) (x2 : Vec Ideal S1x8192 .f32)
    (p : Nat) (hi : (i 0).val = p) (hp1 : 1 ≤ p) (hp : p < 129) (j : Fin 64) (q : Fin 8192) :
    k1_pay2 (F := Ideal) i x1 x2 (ix2 j q)
      = Scalar.select (IntOp.cmpi .eq (BitVec.ofNat 32 (64 * p + j.val - 64)) (x1 (ix2 (0 : Fin 1) q)))
          (x2 (ix2 (0 : Fin 1) q)) Cert.Zono.Z := by
  rw [pay2_apply, hi, word_row p j.val hp1 hp j.isLt]

/-- The printed index maps over the grid: the result's block index is (p, 0), every input's is (0, 0), and the
    grid coordinate of point p is p. -/
private theorem idx_facts : ∀ t : Fin cfg1.N, win1_3.index t (0 : Fin 2) = t.val ∧ win1_3.index t (1 : Fin 2) = 0
    ∧ win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ ((grid1.coords t) 0).val = t.val :=
  (by decide +kernel : ∀ t : Fin grid1.N, _)

section Blocks
variable {F : FTy → Type} [FloatOps F]
variable (V : (c : Dev nD) → (b : Ref sig .tc) → Buf (Elt F) ((c : Thread nD τ).loc b))

/-- The head-and-body input's block is its whole array at every point. -/
private theorem iblk_hb (c : Dev nD) (t : Fin cfg1.N) :
    (iblk1 V c 0 t : Vec F S64x8192 .f32) = V c main_v1_0 := by
  obtain ⟨-, -, e0, e1, -⟩ := idx_facts t
  funext y
  unfold iblk1
  rw [View.read_apply]
  show V c main_v1_0 _ = V c main_v1_0 y
  congr 1
  funext a
  apply Fin.ext
  match a with
  | ⟨0, _⟩ => show win1_0.index t 0 * 64 + 1 * (y 0).val = (y 0).val; rw [e0]; omega
  | ⟨1, _⟩ => show win1_0.index t 1 * 8192 + 1 * (y 1).val = (y 1).val; rw [e1]; omega

/-- The row table's block is its whole array at every point. -/
private theorem iblk_rows (c : Dev nD) (t : Fin cfg1.N) :
    (iblk1 V c 1 t : Vec F S1x8192 .i32) = V c main_v10 := by
  obtain ⟨-, -, -, -, e0, e1, -⟩ := idx_facts t
  funext y
  unfold iblk1
  rw [View.read_apply]
  show V c main_v10 _ = V c main_v10 y
  congr 1
  funext a
  apply Fin.ext
  match a with
  | ⟨0, _⟩ => show win1_1.index t 0 * 1 + 1 * (y 0).val = (y 0).val; rw [e0]; omega
  | ⟨1, _⟩ => show win1_1.index t 1 * 8192 + 1 * (y 1).val = (y 1).val; rw [e1]; omega

/-- The value row's block is its whole array at every point. -/
private theorem iblk_vals (c : Dev nD) (t : Fin cfg1.N) :
    (iblk1 V c 2 t : Vec F S1x8192 .f32) = V c main_v11 := by
  obtain ⟨-, -, -, -, -, -, e0, e1, -⟩ := idx_facts t
  funext y
  unfold iblk1
  rw [View.read_apply]
  show V c main_v11 _ = V c main_v11 y
  congr 1
  funext a
  apply Fin.ext
  match a with
  | ⟨0, _⟩ => show win1_2.index t 0 * 1 + 1 * (y 0).val = (y 0).val; rw [e0]; omega
  | ⟨1, _⟩ => show win1_2.index t 1 * 8192 + 1 * (y 1).val = (y 1).val; rw [e1]; omega

end Blocks

/-- The stacked result on a head-and-body row: the first argument there. -/
private theorem OUT2r_head (hb : S64x8192.Idx → EReal) (rows : IVec S1x8192 32) (vals : S1x8192.Idx → EReal)
    (i : S8256x8192.Idx) (y : S64x8192.Idx) (h0 : (i 0).val = (y 0).val) (h1 : (i 1).val = (y 1).val) :
    Cert.Zono.OUT2r hb rows vals i = hb y := by
  have hy : (y 0).val < 64 := (y 0).isLt
  have hlt : (i 0).val < 64 := by omega
  show (if h : (i 0).val < 64 then hb (ix2 (⟨(i 0).val, h⟩ : Fin 64) (i 1)) else _) = _
  rw [dif_pos hlt]
  congr 1
  funext a
  apply Fin.ext
  match a with
  | ⟨0, _⟩ => exact h0
  | ⟨1, _⟩ => exact h1

/-- The stacked result on a new error row 64 p + j (1 <= p): the selection of the value row by the row table. -/
private theorem OUT2r_tail (hb : S64x8192.Idx → EReal) (rows : IVec S1x8192 32) (vals : S1x8192.Idx → EReal)
    (i : S8256x8192.Idx) (p j : Nat) (q : Fin 8192) (hp : 1 ≤ p) (hj : j < 64)
    (h0 : (i 0).val = 64 * p + j) (h1 : (i 1).val = q.val) :
    Cert.Zono.OUT2r hb rows vals i
      = Scalar.select (IntOp.cmpi .eq (BitVec.ofNat 32 (64 * p + j - 64)) (rows (ix2 (0 : Fin 1) q))) (vals (ix2 (0 : Fin 1) q)) Cert.Zono.Z := by
  have hge : ¬ (i 0).val < 64 := by omega
  have hq : (i 1 : Fin 8192) = q := Fin.ext h1
  show (if h : (i 0).val < 64 then _ else Scalar.select (IntOp.cmpi .eq (BitVec.ofNat 32 ((i 0).val - 64)) (rows (ix2 (0 : Fin 1) (i 1)))) (vals (ix2 (0 : Fin 1) (i 1))) Cert.Zono.Z) = _
  rw [dif_neg hge, h0, hq]

section Flushed
variable (V : (c : Dev nD) → (b : Ref sig .tc) → Buf (Elt Ideal) ((c : Thread nD τ).loc b))

/-- What point p writes back is block p of the stacked result of the three inputs as the region finds them. -/
private theorem flushed_eq (c : Dev nD) (t : Fin cfg1.N) :
    (dat1 V c).flushed 3 t = ((cfg1.win 3).blk t).view.read (Elt Ideal)
      (Cert.Zono.OUT2r (V c main_v1_0) (V c main_v10) (V c main_v11)) := by
  show (cfg1.win 3).cut (grid1.coords t) ((dat1 V c).after 3 t) = _
  rw [after1_3]
  have hN : t.val < 129 := lt_of_lt_of_eq t.isLt (show cfg1.N = 129 from N_1)
  obtain ⟨e0, e1, -, -, -, -, -, -, ec⟩ := idx_facts t
  by_cases h0 : t.val = 0
  · rw [outsAt1_A V c t (by omega) (by omega), out_A, iblk_hb]
    funext y
    show V c main_v1_0 y = Cert.Zono.OUT2r (V c main_v1_0) (V c main_v10) (V c main_v11) (((cfg1.win 3).blk t).view.emb y)
    exact (OUT2r_head (V c main_v1_0) (V c main_v10) (V c main_v11) (((cfg1.win 3).blk t).view.emb y) y
      (by show win1_3.index t 0 * 64 + 1 * (y 0).val = (y 0).val; rw [e0]; omega)
      (by show win1_3.index t 1 * 8192 + 1 * (y 1).val = (y 1).val; rw [e1]; omega)).symm
  · rw [outsAt1_B V c t (by omega) (by omega), out_B, iblk_rows, iblk_vals]
    funext y
    have hyj : (y 0).val < 64 := (y 0).isLt
    have hyq : (y 1).val < 8192 := (y 1).isLt
    have hy : (y : S64x8192.Idx) = ix2 (⟨(y 0).val, hyj⟩ : Fin 64) (⟨(y 1).val, hyq⟩ : Fin 8192) := by
      funext a
      apply Fin.ext
      match a with
      | ⟨0, _⟩ => rfl
      | ⟨1, _⟩ => rfl
    show k1_pay2 (grid1.coords t) (V c main_v10) (V c main_v11) y
      = Cert.Zono.OUT2r (V c main_v1_0) (V c main_v10) (V c main_v11) (((cfg1.win 3).blk t).view.emb y)
    refine (congrArg (k1_pay2 (grid1.coords t) (V c main_v10) (V c main_v11)) hy).trans ?_
    refine (pay2_row (grid1.coords t) (V c main_v10) (V c main_v11) t.val ec (by omega) hN ⟨(y 0).val, hyj⟩ ⟨(y 1).val, hyq⟩).trans ?_
    exact (OUT2r_tail (V c main_v1_0) (V c main_v10) (V c main_v11) (((cfg1.win 3).blk t).view.emb y) t.val (y 0).val
      ⟨(y 1).val, hyq⟩ (by omega) hyj
      (by show win1_3.index t 0 * 64 + 1 * (y 0).val = 64 * t.val + (y 0).val; rw [e0]; omega)
      (by show win1_3.index t 1 * 8192 + 1 * (y 1).val = (y 1).val; rw [e1]; omega)).symm

end Flushed

/-- An index of the result is in point p's block iff its row is in 64 p .. 64 p + 63 (and its column anywhere). -/
private theorem mem_blk (t : Fin cfg1.N) (i : S8256x8192.Idx) :
    i ∈ ((cfg1.win 3).blk t).view.set ↔ ∀ a : Fin 2, win1_3.index t a * S64x8192.size a ≤ (i a).val
      ∧ (i a).val < win1_3.index t a * S64x8192.size a + S64x8192.size a := by
  show i ∈ ((View.whole main_v12).slice (win1_3.rect t)).set ↔ _
  rw [View.set_slice_whole, Rect.mem_set_unit]
  exact Iff.rfl

/-- The 129 blocks tile the result: row R lies in the block of point R / 64, and every point writes back. -/
private theorem cover (i : S8256x8192.Idx) :
    ∃ t : Fin cfg1.N, (cfg1.win 3).flush t = true ∧ i ∈ ((cfg1.win 3).blk t).view.set := by
  have hi0 : (i 0).val < 8256 := (i 0).isLt
  have hi1 : (i 1).val < 8192 := (i 1).isLt
  have hN : cfg1.N = 129 := N_1
  have ht : (i 0).val / 64 < cfg1.N := by rw [hN]; omega
  obtain ⟨e0, e1, -⟩ := idx_facts ⟨(i 0).val / 64, ht⟩
  refine ⟨⟨(i 0).val / 64, ht⟩, flush1_3 _, ?_⟩
  rw [mem_blk]
  intro a
  match a with
  | ⟨0, _⟩ =>
    show win1_3.index ⟨(i 0).val / 64, ht⟩ 0 * 64 ≤ (i 0).val ∧ (i 0).val < win1_3.index ⟨(i 0).val / 64, ht⟩ 0 * 64 + 64
    rw [e0]
    show (i 0).val / 64 * 64 ≤ (i 0).val ∧ (i 0).val < (i 0).val / 64 * 64 + 64
    omega
  | ⟨1, _⟩ =>
    show win1_3.index ⟨(i 0).val / 64, ht⟩ 1 * 8192 ≤ (i 1).val ∧ (i 1).val < win1_3.index ⟨(i 0).val / 64, ht⟩ 1 * 8192 + 8192
    rw [e1]
    omega

variable (m : (ℓ : Loc nD τ sig) → Buf (Elt Ideal) ℓ) (ρ : Dev nD → PrngReg)

/-- The second kernel's result array. -/
theorem V8_v12 (c : Dev nD) :
    (V8 m ρ c main_v12 : S8256x8192.Idx → EReal)
      = Cert.Zono.OUT2r (V7 m ρ c main_v1_0) (V7 m ρ c main_v10) (V7 m ρ c main_v11) :=
  (hF1 m ρ c 3).symm.trans
    ((dat1 (V7 m ρ) c).arrAt_eq_of_cover 3 _ (fun t _ => flushed_eq (V7 m ρ) c t) cover)

/-- The program's result: the second kernel's array reshaped. -/
theorem W9_v13 (c : Dev nD) :
    (W9 m ρ c (Proc.devRef .tc main_v13) : S8256x8x32x32.Idx → EReal)
      = shapeCast S8256x8x32x32 (V8 m ρ c main_v12 : S8256x8192.Idx → EReal) shapeCasts_S8256x8192_S8256x8x32x32 := by
  show StableHlo.after hostOps2 (W8 m ρ c) (Proc.devRef .tc main_v13) = _
  after_results
  rfl

end Cert.KernelIdeal.KVal

end
-- ==== Proof.KPay.lean ====
/-
  The first kernel's arithmetic read at an index.

  At column q the body computes from the centre a = x(0, q) and the radius e = sum over rows 1..63 of |x(row, q)|:
  the mask, the half offset, the head entry, and for each error row the entry times the body weight.
-/
import proofs.«160533_j26998164423204_1_alg».proof.Proof.Gen.KernelIdeal.Frame
import proofs.«160533_j26998164423204_1_alg».proof.Proof.Spec
import Idealize.ShloMosaic.Lib.Pipeline.Value
import Idealize.ShloMosaic.Lib.ValueLayout
import Idealize.ShloMosaic.PureOps.Ideal.Laws
set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The cast of the loaded block to its own shape is the block. -/
private theorem pay2_eq (x : S64x8192.Idx → EReal) : k0_pay2 (F := Ideal) x = x :=
  shapeCast_self x _

/-- Row 0 at column q is the centre. -/
private theorem pay3_at (x : S64x8192.Idx → EReal) (q : Fin 8192) :
    k0_pay3 (F := Ideal) x (ix2 (0 : Fin 1) q) = Cert.Zono.a2 x q := by
  unfold k0_pay3
  rw [pay2_eq]
  exact slice2_axis0_apply 0 x _ (0 : Fin 1) q (0 : Fin 64) rfl

/-- Error row e at column q, read from the rows cut from row 1 on. -/
private theorem slice1_at (x : S64x8192.Idx → EReal) (e : Fin 63) (q : Fin 8192) :
    extractStridedSlice S63x8192 ![1, 0] x slices_S64x8192_o1_0_S63x8192 (ix2 e q) = Cert.Zono.xe2 x e q :=
  slice2_axis0_apply 1 x _ e q (⟨e.val + 1, by omega⟩ : Fin 64) (Nat.add_comm _ _)

/-- The sum over the error rows of the absolute values at column q is the radius. -/
private theorem pay4_at (x : S64x8192.Idx → EReal) (q : Fin 8192) :
    k0_pay4 (F := Ideal) x (ix2 (0 : Fin 1) q) = Cert.Zono.er2 x q := by
  unfold k0_pay4
  rw [pay2_eq]
  refine (shapeCast_a_1a_apply _ _ (0 : Fin 1) q).trans ?_
  refine (Ideal.multiReduction_add_single _ _ _ _ _ _).trans ?_
  unfold Cert.Zono.er2
  show ∑ k : Fin 63, _ = _
  refine Finset.sum_congr rfl fun e _ => ?_
  have hi : reduces_S63x8192_S8192.lift (ix1 q) e = ix2 e q := by
    funext c
    match c with
    | ⟨0, _⟩ => exact Fin.ext rfl
    | ⟨1, _⟩ => exact Fin.ext rfl
  rw [hi]
  show max (extractStridedSlice S63x8192 ![1, 0] x slices_S64x8192_o1_0_S63x8192 (ix2 e q))
      (-(extractStridedSlice S63x8192 ![1, 0] x slices_S64x8192_o1_0_S63x8192 (ix2 e q))) = _
  rw [slice1_at]

/-- Upper and lower bound at column q. -/
private theorem pay5_at (x : S64x8192.Idx → EReal) (q : Fin 8192) :
    k0_pay5 (F := Ideal) x (ix2 (0 : Fin 1) q) = Cert.Zono.up (Cert.Zono.a2 x q) (Cert.Zono.er2 x q) := by
  show k0_pay3 (F := Ideal) x (ix2 (0 : Fin 1) q) + k0_pay4 (F := Ideal) x (ix2 (0 : Fin 1) q) = _
  rw [pay3_at, pay4_at]; rfl
private theorem pay6_at (x : S64x8192.Idx → EReal) (q : Fin 8192) :
    k0_pay6 (F := Ideal) x (ix2 (0 : Fin 1) q) = Cert.Zono.lo (Cert.Zono.a2 x q) (Cert.Zono.er2 x q) := by
  show k0_pay3 (F := Ideal) x (ix2 (0 : Fin 1) q) - k0_pay4 (F := Ideal) x (ix2 (0 : Fin 1) q) = _
  rw [pay3_at, pay4_at]; rfl

/-- The stored mask at column q. -/
theorem pay7_apply (x : S64x8192.Idx → EReal) (q : Fin 8192) :
    k0_pay7 (F := Ideal) x (ix2 (0 : Fin 1) q) = Cert.Zono.crK (Cert.Zono.a2 x q) (Cert.Zono.er2 x q) := by
  show ((((Ideal.cmp .olt (k0_pay6 (F := Ideal) x (ix2 (0 : Fin 1) q) * k0_pay5 (F := Ideal) x (ix2 (0 : Fin 1) q))
      Cert.Zono.Z).setWidth 32).toInt : ℝ) : EReal) = _
  rw [pay6_at, pay5_at]; rfl

/-- The non-negative mask at column q. -/
private theorem pay8_at (x : S64x8192.Idx → EReal) (q : Fin 8192) :
    k0_pay8 (F := Ideal) x (ix2 (0 : Fin 1) q) = Cert.Zono.nnK (Cert.Zono.a2 x q) (Cert.Zono.er2 x q) := by
  show ((((Ideal.cmp .oge (k0_pay6 (F := Ideal) x (ix2 (0 : Fin 1) q)) Cert.Zono.Z).setWidth 32).toInt : ℝ) : EReal) = _
  rw [pay6_at]; rfl

/-- The slope at column q. -/
private theorem pay9_at (x : S64x8192.Idx → EReal) (q : Fin 8192) :
    k0_pay9 (F := Ideal) x (ix2 (0 : Fin 1) q) = Cert.Zono.lamK (Cert.Zono.a2 x q) (Cert.Zono.er2 x q) := by
  show Scalar.select
      (Ideal.cmp .one
        (k0_pay8 (F := Ideal) x (ix2 (0 : Fin 1) q) + k0_pay7 (F := Ideal) x (ix2 (0 : Fin 1) q) *
          Ideal.div (k0_pay5 (F := Ideal) x (ix2 (0 : Fin 1) q))
            (k0_pay5 (F := Ideal) x (ix2 (0 : Fin 1) q) - k0_pay6 (F := Ideal) x (ix2 (0 : Fin 1) q)))
        (k0_pay8 (F := Ideal) x (ix2 (0 : Fin 1) q) + k0_pay7 (F := Ideal) x (ix2 (0 : Fin 1) q) *
          Ideal.div (k0_pay5 (F := Ideal) x (ix2 (0 : Fin 1) q))
            (k0_pay5 (F := Ideal) x (ix2 (0 : Fin 1) q) - k0_pay6 (F := Ideal) x (ix2 (0 : Fin 1) q))))
      Cert.Zono.HALF
      (k0_pay8 (F := Ideal) x (ix2 (0 : Fin 1) q) + k0_pay7 (F := Ideal) x (ix2 (0 : Fin 1) q) *
          Ideal.div (k0_pay5 (F := Ideal) x (ix2 (0 : Fin 1) q))
            (k0_pay5 (F := Ideal) x (ix2 (0 : Fin 1) q) - k0_pay6 (F := Ideal) x (ix2 (0 : Fin 1) q))) = _
  rw [pay8_at, pay7_apply, pay5_at, pay6_at]; rfl

/-- The offset at column q. -/
private theorem pay10_at (x : S64x8192.Idx → EReal) (q : Fin 8192) :
    k0_pay10 (F := Ideal) x (ix2 (0 : Fin 1) q) = Cert.Zono.delK (Cert.Zono.a2 x q) (Cert.Zono.er2 x q) := by
  show max ((Cert.Zono.Z - k0_pay9 (F := Ideal) x (ix2 (0 : Fin 1) q)) * k0_pay6 (F := Ideal) x (ix2 (0 : Fin 1) q))
      ((Cert.Zono.ONE - k0_pay9 (F := Ideal) x (ix2 (0 : Fin 1) q)) * k0_pay5 (F := Ideal) x (ix2 (0 : Fin 1) q)) = _
  rw [pay9_at, pay6_at, pay5_at]; rfl

/-- The stored half offset at column q. -/
theorem pay1_10_apply (x : S64x8192.Idx → EReal) (q : Fin 8192) :
    k0_pay1 (F := Ideal) (k0_pay10 x) (ix2 (0 : Fin 1) q) = Cert.Zono.dhK (Cert.Zono.a2 x q) (Cert.Zono.er2 x q) := by
  show Ideal.div (k0_pay10 (F := Ideal) x (ix2 (0 : Fin 1) q)) Cert.Zono.TWO = _
  rw [pay10_at]; rfl

/-- The head row at column q. -/
private theorem head_at (x : S64x8192.Idx → EReal) (q : Fin 8192) :
    (Ideal.div (k0_pay10 (F := Ideal) x (ix2 (0 : Fin 1) q)) Cert.Zono.TWO
        + k0_pay9 (F := Ideal) x (ix2 (0 : Fin 1) q) * k0_pay3 (F := Ideal) x (ix2 (0 : Fin 1) q))
      * k0_pay7 (F := Ideal) x (ix2 (0 : Fin 1) q)
      + k0_pay3 (F := Ideal) x (ix2 (0 : Fin 1) q) * k0_pay8 (F := Ideal) x (ix2 (0 : Fin 1) q)
      = Cert.Zono.headK (Cert.Zono.a2 x q) (Cert.Zono.er2 x q) := by
  rw [pay10_at, pay9_at, pay3_at, pay7_apply, pay8_at]; rfl

/-- The body weight at column q. -/
private theorem w_at (x : S64x8192.Idx → EReal) (q : Fin 8192) :
    k0_pay9 (F := Ideal) x (ix2 (0 : Fin 1) q) * k0_pay7 (F := Ideal) x (ix2 (0 : Fin 1) q)
      + k0_pay8 (F := Ideal) x (ix2 (0 : Fin 1) q)
      = Cert.Zono.wK (Cert.Zono.a2 x q) (Cert.Zono.er2 x q) := by
  rw [pay9_at, pay7_apply, pay8_at]; rfl

/-- The stored head-and-body block at an index. -/
theorem pay11_apply (x : S64x8192.Idx → EReal) (i : S64x8192.Idx) :
    k0_pay11 (F := Ideal) x i = Cert.Zono.hb2 x i := by
  unfold k0_pay11 Cert.Zono.hb2
  by_cases h0 : (i 0).val = 0
  · rw [if_pos h0]
    refine (concatenate_pair_apply_left (t := S64x8192) (s₁ := S1x8192) (s₂ := S63x8192) (0 : Fin 2) _ _
      concatenates_S1x8192_S63x8192_S64x8192_d0 i rfl
      (ix2 (0 : Fin 1) (i 1)) (fun b => ?_)).trans ?_
    · match b with
      | ⟨0, _⟩ => exact h0.symm
      | ⟨1, _⟩ => rfl
    · exact head_at x (i 1)
  · rw [if_neg h0]
    have hlt : (i 0).val - 1 < 63 := by have := idx2_lt0 i; omega
    refine (concatenate_pair_apply_right (t := S64x8192) (s₁ := S1x8192) (s₂ := S63x8192) (0 : Fin 2) _ _
      concatenates_S1x8192_S63x8192_S64x8192_d0 i rfl rfl
      (ix2 (⟨(i 0).val - 1, hlt⟩ : Fin 63) (i 1)) (fun b hb => ?_) ?_).trans ?_
    · match b with
      | ⟨0, _⟩ => exact absurd rfl hb
      | ⟨1, _⟩ => rfl
    · show (i 0).val - 1 + 1 = (i 0).val
      omega
    · show extractStridedSlice S63x8192 ![1, 0] (k0_pay2 (F := Ideal) x) slices_S64x8192_o1_0_S63x8192
          (ix2 (⟨(i 0).val - 1, hlt⟩ : Fin 63) (i 1))
        * broadcastTo S63x8192 _ broadcasts_S1x8192_S63x8192 (ix2 (⟨(i 0).val - 1, hlt⟩ : Fin 63) (i 1)) = _
      refine congrArg₂ (· * ·) ?_ ((broadcastTo_1b_ab_apply _ _ _ _).trans (w_at x (i 1)))
      rw [pay2_eq]
      refine (slice2_axis0_apply 1 x _ (⟨(i 0).val - 1, hlt⟩ : Fin 63) (i 1) (i 0) (by show (i 0).val = 1 + ((i 0).val - 1); omega)).trans ?_
      exact congrArg x (eq_ix2 i).symm

end Cert.KernelIdeal.KVal

end
-- ==== Proof.KVal.lean ====
/-
  The kernel program's result as a function of its argument.

  Chaining the region and host-stretch facts: the result is the [8256, 8192] stack reshaped, the stack's first 64
  rows are the first kernel's head-and-body array, and row 64 + r compares the word r with the row table; the row
  table and the value row, given to the second kernel as [1, 8192] rows, are the flat row table of the mask words
  and the flat product of half offset and mask.  Read at an index, the first kernel's arithmetic is the
  specification's.
-/
import proofs.«160533_j26998164423204_1_alg».proof.Proof.KReg0
import proofs.«160533_j26998164423204_1_alg».proof.Proof.KGlue
import proofs.«160533_j26998164423204_1_alg».proof.Proof.KReg1
import proofs.«160533_j26998164423204_1_alg».proof.Proof.KPay
import Idealize.ShloMosaic.Lib.ValueLayout

set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The mask converted to words, flat, is the specification's mask words. -/
theorem ci_eq (x : S64x8192.Idx → EReal) :
    (fptosi 32 (shapeCast S8192 (k0_pay7 (F := Ideal) x) shapeCasts_S1x8192_S8192 : FVec Ideal S8192 .f32) : IVec S8192 32)
      = Cert.Zono.ci2 x := by
  funext q'
  obtain ⟨q, rfl⟩ : ∃ q : Fin 8192, q' = ix1 q := ⟨q' 0, eq_ix1 q'⟩
  show Ideal.fptosi 32 (shapeCast S8192 (k0_pay7 (F := Ideal) x) shapeCasts_S1x8192_S8192 (ix1 q)) = _
  rw [shapeCast_1a_a_apply, pay7_apply]
  rfl

/-- Half offset times mask, flat, at column q is the specification's value. -/
theorem val_eq (x : S64x8192.Idx → EReal) (q : Fin 8192) :
    (mulf (shapeCast S8192 (k0_pay1 (F := Ideal) (k0_pay10 x)) shapeCasts_S1x8192_S8192 : FVec Ideal S8192 .f32)
        (shapeCast S8192 (k0_pay7 (F := Ideal) x) shapeCasts_S1x8192_S8192)) (ix1 q) = Cert.Zono.val2 x (ix1 q) := by
  rw [mulf_apply, shapeCast_1a_a_apply, shapeCast_1a_a_apply, pay1_10_apply, pay7_apply]
  rfl

/-- A new error row at column q: the row table and the value row, read through their leading unit axis, are the
    specification's flat row table and values. -/
theorem row_at (x : S64x8192.Idx → EReal) (r : Nat) (q : Fin 8192) :
    Scalar.select (IntOp.cmpi .eq (BitVec.ofNat 32 r)
        (shapeCast S1x8192 (Cert.Zono.rowsOf reduceWindows_S8192_S8192_w8192s1p8191_0 h_S_ bcast_S_S_ bcast_S_S8192
          (fptosi 32 (shapeCast S8192 (k0_pay7 (F := Ideal) x) shapeCasts_S1x8192_S8192 : FVec Ideal S8192 .f32))) shapeCasts_S8192_S1x8192
          (ix2 (0 : Fin 1) q)))
      (shapeCast S1x8192 (mulf (shapeCast S8192 (k0_pay1 (F := Ideal) (k0_pay10 x)) shapeCasts_S1x8192_S8192 : FVec Ideal S8192 .f32)
          (shapeCast S8192 (k0_pay7 (F := Ideal) x) shapeCasts_S1x8192_S8192)) shapeCasts_S8192_S1x8192 (ix2 (0 : Fin 1) q))
      Cert.Zono.Z
    = Scalar.select (IntOp.cmpi .eq (BitVec.ofNat 32 r)
        (Cert.Zono.rowsOf reduceWindows_S8192_S8192_w8192s1p8191_0 h_S_ bcast_S_S_ bcast_S_S8192 (Cert.Zono.ci2 x) (ix1 q)))
      (Cert.Zono.val2 x (ix1 q)) Cert.Zono.Z := by
  rw [shapeCast_a_1a_apply, shapeCast_a_1a_apply, ci_eq, val_eq]

/-- The stack built from the first kernel's arrays in the second kernel's layout is the specification's stack. -/
theorem stack_eq (x : S64x8192.Idx → EReal) :
    Cert.Zono.OUT2r (k0_pay11 (F := Ideal) x)
      (shapeCast S1x8192 (Cert.Zono.rowsOf reduceWindows_S8192_S8192_w8192s1p8191_0 h_S_ bcast_S_S_ bcast_S_S8192
          (fptosi 32 (shapeCast S8192 (k0_pay7 (F := Ideal) x) shapeCasts_S1x8192_S8192 : FVec Ideal S8192 .f32))) shapeCasts_S8192_S1x8192)
      (shapeCast S1x8192 (mulf (shapeCast S8192 (k0_pay1 (F := Ideal) (k0_pay10 x)) shapeCasts_S1x8192_S8192 : FVec Ideal S8192 .f32)
          (shapeCast S8192 (k0_pay7 (F := Ideal) x) shapeCasts_S1x8192_S8192)) shapeCasts_S8192_S1x8192)
    = Cert.Zono.OUT2 (Cert.Zono.hb2 x)
        (Cert.Zono.rowsOf reduceWindows_S8192_S8192_w8192s1p8191_0 h_S_ bcast_S_S_ bcast_S_S8192 (Cert.Zono.ci2 x)) (Cert.Zono.val2 x) := by
  funext i
  unfold Cert.Zono.OUT2r Cert.Zono.OUT2
  by_cases h : (i 0).val < 64
  · rw [dif_pos h, dif_pos h, pay11_apply]
  · rw [dif_neg h, dif_neg h]
    exact row_at x _ (i 1)

/-- The kernel program's result buffer at the end of the run is the specification of the argument. -/
theorem kernel_value (c : Dev nD) :
    (W9 m ρ c (Proc.devRef .tc main_v13) : S8256x8x32x32.Idx → EReal)
      = Cert.Zono.SPEC reduceWindows_S8192_S8192_w8192s1p8191_0 h_S_ bcast_S_S_ bcast_S_S8192
          (m ((c.tc : Thread nD τ).loc main_arg0)) := by
  rw [W9_v13, V8_v12, V7_v1_0, V7_v10, V7_v11, V2_v1_0, V2_v1_1, V2_v1_2, V1_v0]
  unfold Cert.Zono.SPEC Cert.Zono.x2
  rw [stack_eq]

end Cert.KernelIdeal.KVal

end
-- ==== Proof.RRun.lean ====
/-
  The reference's @main as a list of host operations, and its run.

  The functions jax outlined (where, cumsum, clip) are listed inline at their call sites over the call's buffer
  record.  Every weakly fair execution terminates with each buffer at the fold of the operations over the launch
  contents; the argument is written by no operation.
-/
import proofs.«160533_j26998164423204_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic.TcCoe Idealize.SL.Sem Idealize.ShloMosaic.StableHlo Cert.ReferenceIdeal.Facts₀ Cert.ReferenceIdeal.Facts Idealize.ShloMosaic

variable {F : FTy → Type} [FloatOps F]

/-- @main's operations, in order (the callees' operations inline). -/
abbrev ops : List (HloOp τ sig (Elt F)) :=
  [ unary main_arg0 main_v0 ((extractStridedSlice S63x8x32x32 ![1, 0, 0, 0] · Facts₀.slices_S64x8x32x32_S63x8x32x32_1_0_0_0) : (⟨S64x8x32x32, .f32⟩ : BufTy).Contents (Elt F) → (⟨S63x8x32x32, .f32⟩ : BufTy).Contents (Elt F)),
    unary main_v0 main_v1 (Host.absf : (⟨S63x8x32x32, .f32⟩ : BufTy).Contents (Elt F) → (⟨S63x8x32x32, .f32⟩ : BufTy).Contents (Elt F)),
    nullary main_cst (constant S_ .f32 0x00000000#32),
    binary main_v1 main_cst main_v2 ((fun x v => Host.reduceAdd x v Facts₀.reducesTo_S63x8x32x32_S8x32x32_d0 Facts₀.h_S_) : (⟨S63x8x32x32, .f32⟩ : BufTy).Contents (Elt F) → (⟨S_, .f32⟩ : BufTy).Contents (Elt F) → (⟨S8x32x32, .f32⟩ : BufTy).Contents (Elt F)),
    unary main_arg0 main_v3 ((extractStridedSlice S1x8x32x32 ![0, 0, 0, 0] · Facts₀.slices_S64x8x32x32_S1x8x32x32_0_0_0_0) : (⟨S64x8x32x32, .f32⟩ : BufTy).Contents (Elt F) → (⟨S1x8x32x32, .f32⟩ : BufTy).Contents (Elt F)),
    reshape main_v3 main_v4 rfl Facts₀.shapeCasts_S1x8x32x32_S8x32x32,
    binary main_v4 main_v2 main_v5 (addf : (⟨S8x32x32, .f32⟩ : BufTy).Contents (Elt F) → (⟨S8x32x32, .f32⟩ : BufTy).Contents (Elt F) → (⟨S8x32x32, .f32⟩ : BufTy).Contents (Elt F)),
    unary main_arg0 main_v6 ((extractStridedSlice S1x8x32x32 ![0, 0, 0, 0] · Facts₀.slices_S64x8x32x32_S1x8x32x32_0_0_0_0) : (⟨S64x8x32x32, .f32⟩ : BufTy).Contents (Elt F) → (⟨S1x8x32x32, .f32⟩ : BufTy).Contents (Elt F)),
    reshape main_v6 main_v7 rfl Facts₀.shapeCasts_S1x8x32x32_S8x32x32,
    binary main_v7 main_v2 main_v8 (subf : (⟨S8x32x32, .f32⟩ : BufTy).Contents (Elt F) → (⟨S8x32x32, .f32⟩ : BufTy).Contents (Elt F) → (⟨S8x32x32, .f32⟩ : BufTy).Contents (Elt F)),
    binary main_v8 main_v5 main_v9 (mulf : (⟨S8x32x32, .f32⟩ : BufTy).Contents (Elt F) → (⟨S8x32x32, .f32⟩ : BufTy).Contents (Elt F) → (⟨S8x32x32, .f32⟩ : BufTy).Contents (Elt F)),
    nullary main_cst_0 (constant S_ .f32 0x00000000#32),
    unary main_cst_0 main_v10 (broadcastInDim S8x32x32 ![] Facts₀.bcast_S_S8x32x32 : (⟨S_, .f32⟩ : BufTy).Contents (Elt F) → (⟨S8x32x32, .f32⟩ : BufTy).Contents (Elt F)),
    binary main_v9 main_v10 main_v11 (cmpf .olt : (⟨S8x32x32, .f32⟩ : BufTy).Contents (Elt F) → (⟨S8x32x32, .f32⟩ : BufTy).Contents (Elt F) → (⟨S8x32x32, .i1⟩ : BufTy).Contents (Elt F)),
    unary main_v11 main_v12 (uitofp .f32 : (⟨S8x32x32, .i1⟩ : BufTy).Contents (Elt F) → (⟨S8x32x32, .f32⟩ : BufTy).Contents (Elt F)),
    nullary main_cst_1 (constant S_ .f32 0x00000000#32),
    unary main_cst_1 main_v13 (broadcastInDim S8x32x32 ![] Facts₀.bcast_S_S8x32x32 : (⟨S_, .f32⟩ : BufTy).Contents (Elt F) → (⟨S8x32x32, .f32⟩ : BufTy).Contents (Elt F)),
    binary main_v8 main_v13 main_v14 (cmpf .oge : (⟨S8x32x32, .f32⟩ : BufTy).Contents (Elt F) → (⟨S8x32x32, .f32⟩ : BufTy).Contents (Elt F) → (⟨S8x32x32, .i1⟩ : BufTy).Contents (Elt F)),
    unary main_v14 main_v15 (uitofp .f32 : (⟨S8x32x32, .i1⟩ : BufTy).Contents (Elt F) → (⟨S8x32x32, .f32⟩ : BufTy).Contents (Elt F)),
    binary main_v12 main_v5 main_v16 (mulf : (⟨S8x32x32, .f32⟩ : BufTy).Contents (Elt F) → (⟨S8x32x32, .f32⟩ : BufTy).Contents (Elt F) → (⟨S8x32x32, .f32⟩ : BufTy).Contents (Elt F)),
    binary main_v5 main_v8 main_v17 (subf : (⟨S8x32x32, .f32⟩ : BufTy).Contents (Elt F) → (⟨S8x32x32, .f32⟩ : BufTy).Contents (Elt F) → (⟨S8x32x32, .f32⟩ : BufTy).Contents (Elt F)),
    binary main_v16 main_v17 main_v18 (Host.divf : (⟨S8x32x32, .f32⟩ : BufTy).Contents (Elt F) → (⟨S8x32x32, .f32⟩ : BufTy).Contents (Elt F) → (⟨S8x32x32, .f32⟩ : BufTy).Contents (Elt F)),
    binary main_v15 main_v18 main_v19 (addf : (⟨S8x32x32, .f32⟩ : BufTy).Contents (Elt F) → (⟨S8x32x32, .f32⟩ : BufTy).Contents (Elt F) → (⟨S8x32x32, .f32⟩ : BufTy).Contents (Elt F)),
    binary main_v19 main_v19 main_v20 (cmpf .une : (⟨S8x32x32, .f32⟩ : BufTy).Contents (Elt F) → (⟨S8x32x32, .f32⟩ : BufTy).Contents (Elt F) → (⟨S8x32x32, .i1⟩ : BufTy).Contents (Elt F)),
    nullary main_cst_2 (constant S_ .f32 0x3F000000#32),
    unary main_cst_2 main_call0_v0 (id : (⟨S_, .f32⟩ : BufTy).Contents (Elt F) → (⟨S_, .f32⟩ : BufTy).Contents (Elt F)),
    unary main_call0_v0 main_call0_v1 (broadcastInDim S8x32x32 ![] Facts₀.bcast_S_S8x32x32 : (⟨S_, .f32⟩ : BufTy).Contents (Elt F) → (⟨S8x32x32, .f32⟩ : BufTy).Contents (Elt F)),
    ternary main_v20 main_call0_v1 main_v19 main_v21 (select : (⟨S8x32x32, .i1⟩ : BufTy).Contents (Elt F) → (⟨S8x32x32, .f32⟩ : BufTy).Contents (Elt F) → (⟨S8x32x32, .f32⟩ : BufTy).Contents (Elt F) → (⟨S8x32x32, .f32⟩ : BufTy).Contents (Elt F)),
    unary main_v21 main_v22 (Host.negf : (⟨S8x32x32, .f32⟩ : BufTy).Contents (Elt F) → (⟨S8x32x32, .f32⟩ : BufTy).Contents (Elt F)),
    binary main_v22 main_v8 main_v23 (mulf : (⟨S8x32x32, .f32⟩ : BufTy).Contents (Elt F) → (⟨S8x32x32, .f32⟩ : BufTy).Contents (Elt F) → (⟨S8x32x32, .f32⟩ : BufTy).Contents (Elt F)),
    nullary main_cst_3 (constant S_ .f32 0x3F800000#32),
    unary main_cst_3 main_v24 (broadcastInDim S8x32x32 ![] Facts₀.bcast_S_S8x32x32 : (⟨S_, .f32⟩ : BufTy).Contents (Elt F) → (⟨S8x32x32, .f32⟩ : BufTy).Contents (Elt F)),
    binary main_v24 main_v21 main_v25 (subf : (⟨S8x32x32, .f32⟩ : BufTy).Contents (Elt F) → (⟨S8x32x32, .f32⟩ : BufTy).Contents (Elt F) → (⟨S8x32x32, .f32⟩ : BufTy).Contents (Elt F)),
    binary main_v25 main_v5 main_v26 (mulf : (⟨S8x32x32, .f32⟩ : BufTy).Contents (Elt F) → (⟨S8x32x32, .f32⟩ : BufTy).Contents (Elt F) → (⟨S8x32x32, .f32⟩ : BufTy).Contents (Elt F)),
    binary main_v23 main_v26 main_v27 (maximumf : (⟨S8x32x32, .f32⟩ : BufTy).Contents (Elt F) → (⟨S8x32x32, .f32⟩ : BufTy).Contents (Elt F) → (⟨S8x32x32, .f32⟩ : BufTy).Contents (Elt F)),
    nullary main_cst_4 (constant S_ .f32 0x40000000#32),
    unary main_cst_4 main_v28 (broadcastInDim S8x32x32 ![] Facts₀.bcast_S_S8x32x32 : (⟨S_, .f32⟩ : BufTy).Contents (Elt F) → (⟨S8x32x32, .f32⟩ : BufTy).Contents (Elt F)),
    binary main_v27 main_v28 main_v29 (Host.divf : (⟨S8x32x32, .f32⟩ : BufTy).Contents (Elt F) → (⟨S8x32x32, .f32⟩ : BufTy).Contents (Elt F) → (⟨S8x32x32, .f32⟩ : BufTy).Contents (Elt F)),
    unary main_arg0 main_v30 ((extractStridedSlice S1x8x32x32 ![0, 0, 0, 0] · Facts₀.slices_S64x8x32x32_S1x8x32x32_0_0_0_0) : (⟨S64x8x32x32, .f32⟩ : BufTy).Contents (Elt F) → (⟨S1x8x32x32, .f32⟩ : BufTy).Contents (Elt F)),
    reshape main_v30 main_v31 rfl Facts₀.shapeCasts_S1x8x32x32_S8x32x32,
    binary main_v21 main_v31 main_v32 (mulf : (⟨S8x32x32, .f32⟩ : BufTy).Contents (Elt F) → (⟨S8x32x32, .f32⟩ : BufTy).Contents (Elt F) → (⟨S8x32x32, .f32⟩ : BufTy).Contents (Elt F)),
    binary main_v29 main_v32 main_v33 (addf : (⟨S8x32x32, .f32⟩ : BufTy).Contents (Elt F) → (⟨S8x32x32, .f32⟩ : BufTy).Contents (Elt F) → (⟨S8x32x32, .f32⟩ : BufTy).Contents (Elt F)),
    binary main_v33 main_v12 main_v34 (mulf : (⟨S8x32x32, .f32⟩ : BufTy).Contents (Elt F) → (⟨S8x32x32, .f32⟩ : BufTy).Contents (Elt F) → (⟨S8x32x32, .f32⟩ : BufTy).Contents (Elt F)),
    unary main_arg0 main_v35 ((extractStridedSlice S1x8x32x32 ![0, 0, 0, 0] · Facts₀.slices_S64x8x32x32_S1x8x32x32_0_0_0_0) : (⟨S64x8x32x32, .f32⟩ : BufTy).Contents (Elt F) → (⟨S1x8x32x32, .f32⟩ : BufTy).Contents (Elt F)),
    reshape main_v35 main_v36 rfl Facts₀.shapeCasts_S1x8x32x32_S8x32x32,
    binary main_v36 main_v15 main_v37 (mulf : (⟨S8x32x32, .f32⟩ : BufTy).Contents (Elt F) → (⟨S8x32x32, .f32⟩ : BufTy).Contents (Elt F) → (⟨S8x32x32, .f32⟩ : BufTy).Contents (Elt F)),
    binary main_v34 main_v37 main_v38 (addf : (⟨S8x32x32, .f32⟩ : BufTy).Contents (Elt F) → (⟨S8x32x32, .f32⟩ : BufTy).Contents (Elt F) → (⟨S8x32x32, .f32⟩ : BufTy).Contents (Elt F)),
    unary main_arg0 main_v39 ((extractStridedSlice S63x8x32x32 ![1, 0, 0, 0] · Facts₀.slices_S64x8x32x32_S63x8x32x32_1_0_0_0) : (⟨S64x8x32x32, .f32⟩ : BufTy).Contents (Elt F) → (⟨S63x8x32x32, .f32⟩ : BufTy).Contents (Elt F)),
    binary main_v21 main_v12 main_v40 (mulf : (⟨S8x32x32, .f32⟩ : BufTy).Contents (Elt F) → (⟨S8x32x32, .f32⟩ : BufTy).Contents (Elt F) → (⟨S8x32x32, .f32⟩ : BufTy).Contents (Elt F)),
    binary main_v40 main_v15 main_v41 (addf : (⟨S8x32x32, .f32⟩ : BufTy).Contents (Elt F) → (⟨S8x32x32, .f32⟩ : BufTy).Contents (Elt F) → (⟨S8x32x32, .f32⟩ : BufTy).Contents (Elt F)),
    unary main_v41 main_v42 (broadcastInDim S1x8x32x32 ![1, 2, 3] Facts₀.bcast_S8x32x32_S1x8x32x32_1_2_3 : (⟨S8x32x32, .f32⟩ : BufTy).Contents (Elt F) → (⟨S1x8x32x32, .f32⟩ : BufTy).Contents (Elt F)),
    unary main_v42 main_v43 (broadcastInDim S63x8x32x32 ![0, 1, 2, 3] Facts₀.bcast_S1x8x32x32_S63x8x32x32_0_1_2_3 : (⟨S1x8x32x32, .f32⟩ : BufTy).Contents (Elt F) → (⟨S63x8x32x32, .f32⟩ : BufTy).Contents (Elt F)),
    binary main_v39 main_v43 main_v44 (mulf : (⟨S63x8x32x32, .f32⟩ : BufTy).Contents (Elt F) → (⟨S63x8x32x32, .f32⟩ : BufTy).Contents (Elt F) → (⟨S63x8x32x32, .f32⟩ : BufTy).Contents (Elt F)),
    reshape main_v12 main_v45 rfl Facts₀.shapeCasts_S8x32x32_S8192,
    nullary main_cst_5 (constant S_ .f32 0x00000000#32),
    unary main_cst_5 main_v46 (broadcastInDim S8192 ![] Facts₀.bcast_S_S8192 : (⟨S_, .f32⟩ : BufTy).Contents (Elt F) → (⟨S8192, .f32⟩ : BufTy).Contents (Elt F)),
    binary main_v45 main_v46 main_v47 (cmpf .ogt : (⟨S8192, .f32⟩ : BufTy).Contents (Elt F) → (⟨S8192, .f32⟩ : BufTy).Contents (Elt F) → (⟨S8192, .i1⟩ : BufTy).Contents (Elt F)),
    nullary main_cst_6 (constant S_ .f32 0x40000000#32),
    unary main_cst_6 main_v48 (broadcastInDim S8x32x32 ![] Facts₀.bcast_S_S8x32x32 : (⟨S_, .f32⟩ : BufTy).Contents (Elt F) → (⟨S8x32x32, .f32⟩ : BufTy).Contents (Elt F)),
    binary main_v27 main_v48 main_v49 (Host.divf : (⟨S8x32x32, .f32⟩ : BufTy).Contents (Elt F) → (⟨S8x32x32, .f32⟩ : BufTy).Contents (Elt F) → (⟨S8x32x32, .f32⟩ : BufTy).Contents (Elt F)),
    reshape main_v49 main_v50 rfl Facts₀.shapeCasts_S8x32x32_S8192,
    unary main_v47 main_v51 ((extui 32 · Facts₀.natLt_1_32) : (⟨S8192, .i1⟩ : BufTy).Contents (Elt F) → (⟨S8192, .i32⟩ : BufTy).Contents (Elt F)),
    nullary main_call1_call0_c (constantI S_ 32 0#32),
    unary main_call1_call0_c main_call1_call0_v0 (broadcastInDim S_ ![] Facts₀.bcast_S_S_ : (⟨S_, .i32⟩ : BufTy).Contents (Elt F) → (⟨S_, .i32⟩ : BufTy).Contents (Elt F)),
    binary main_v51 main_call1_call0_v0 main_v52 ((fun x v => Host.reduceWindow IntOp.addi ![8192] ![1] ![8191] ![0] x v Facts₀.reduceWindows_S8192_S8192_w8192s1p8191_0 Facts₀.h_S_) : (⟨S8192, .i32⟩ : BufTy).Contents (Elt F) → (⟨S_, .i32⟩ : BufTy).Contents (Elt F) → (⟨S8192, .i32⟩ : BufTy).Contents (Elt F)),
    nullary main_c (constantI S_ 32 1#32),
    unary main_c main_v53 (broadcastInDim S8192 ![] Facts₀.bcast_S_S8192 : (⟨S_, .i32⟩ : BufTy).Contents (Elt F) → (⟨S8192, .i32⟩ : BufTy).Contents (Elt F)),
    binary main_v52 main_v53 main_v54 (subi : (⟨S8192, .i32⟩ : BufTy).Contents (Elt F) → (⟨S8192, .i32⟩ : BufTy).Contents (Elt F) → (⟨S8192, .i32⟩ : BufTy).Contents (Elt F)),
    nullary main_c_7 (constantI S_ 32 0#32),
    nullary main_c_8 (constantI S_ 32 8191#32),
    unary main_c_7 main_call2_v0 (id : (⟨S_, .i32⟩ : BufTy).Contents (Elt F) → (⟨S_, .i32⟩ : BufTy).Contents (Elt F)),
    unary main_call2_v0 main_call2_v1 (broadcastInDim S8192 ![] Facts₀.bcast_S_S8192 : (⟨S_, .i32⟩ : BufTy).Contents (Elt F) → (⟨S8192, .i32⟩ : BufTy).Contents (Elt F)),
    binary main_call2_v1 main_v54 main_call2_v2 (maxsi : (⟨S8192, .i32⟩ : BufTy).Contents (Elt F) → (⟨S8192, .i32⟩ : BufTy).Contents (Elt F) → (⟨S8192, .i32⟩ : BufTy).Contents (Elt F)),
    unary main_c_8 main_call2_v3 (id : (⟨S_, .i32⟩ : BufTy).Contents (Elt F) → (⟨S_, .i32⟩ : BufTy).Contents (Elt F)),
    unary main_call2_v3 main_call2_v4 (broadcastInDim S8192 ![] Facts₀.bcast_S_S8192 : (⟨S_, .i32⟩ : BufTy).Contents (Elt F) → (⟨S8192, .i32⟩ : BufTy).Contents (Elt F)),
    binary main_call2_v4 main_call2_v2 main_v55 (minsi : (⟨S8192, .i32⟩ : BufTy).Contents (Elt F) → (⟨S8192, .i32⟩ : BufTy).Contents (Elt F) → (⟨S8192, .i32⟩ : BufTy).Contents (Elt F)),
    nullary main_cst_9 (constant S_ .f32 0x00000000#32),
    unary main_cst_9 main_v56 (broadcastInDim S8192x8192 ![] Facts₀.bcast_S_S8192x8192 : (⟨S_, .f32⟩ : BufTy).Contents (Elt F) → (⟨S8192x8192, .f32⟩ : BufTy).Contents (Elt F)),
    nullary main_v57 (iotaInDim S8192 32 0),
    nullary main_cst_10 (constant S_ .f32 0x00000000#32),
    unary main_cst_10 main_call3_v0 (id : (⟨S_, .f32⟩ : BufTy).Contents (Elt F) → (⟨S_, .f32⟩ : BufTy).Contents (Elt F)),
    unary main_call3_v0 main_call3_v1 (broadcastInDim S8192 ![] Facts₀.bcast_S_S8192 : (⟨S_, .f32⟩ : BufTy).Contents (Elt F) → (⟨S8192, .f32⟩ : BufTy).Contents (Elt F)),
    ternary main_v47 main_v50 main_call3_v1 main_v58 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    nullary main_c_11 (constantI S_ 32 0#32),
    unary main_c_11 main_v59 (broadcastInDim S8192 ![] Facts₀.bcast_S_S8192 : (⟨S_, .i32⟩ : BufTy).Contents (Elt F) → (⟨S8192, .i32⟩ : BufTy).Contents (Elt F)),
    binary main_v55 main_v59 main_v60 (cmpi .slt : (⟨S8192, .i32⟩ : BufTy).Contents (Elt F) → (⟨S8192, .i32⟩ : BufTy).Contents (Elt F) → (⟨S8192, .i1⟩ : BufTy).Contents (Elt F)),
    nullary main_c_12 (constantI S_ 32 8192#32),
    unary main_c_12 main_v61 (broadcastInDim S8192 ![] Facts₀.bcast_S_S8192 : (⟨S_, .i32⟩ : BufTy).Contents (Elt F) → (⟨S8192, .i32⟩ : BufTy).Contents (Elt F)),
    binary main_v55 main_v61 main_v62 (addi : (⟨S8192, .i32⟩ : BufTy).Contents (Elt F) → (⟨S8192, .i32⟩ : BufTy).Contents (Elt F) → (⟨S8192, .i32⟩ : BufTy).Contents (Elt F)),
    ternary main_v60 main_v62 main_v55 main_v63 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_13 (constantI S_ 32 0#32),
    unary main_c_13 main_v64 (broadcastInDim S8192 ![] Facts₀.bcast_S_S8192 : (⟨S_, .i32⟩ : BufTy).Contents (Elt F) → (⟨S8192, .i32⟩ : BufTy).Contents (Elt F)),
    binary main_v57 main_v64 main_v65 (cmpi .slt : (⟨S8192, .i32⟩ : BufTy).Contents (Elt F) → (⟨S8192, .i32⟩ : BufTy).Contents (Elt F) → (⟨S8192, .i1⟩ : BufTy).Contents (Elt F)),
    nullary main_c_14 (constantI S_ 32 8192#32),
    unary main_c_14 main_v66 (broadcastInDim S8192 ![] Facts₀.bcast_S_S8192 : (⟨S_, .i32⟩ : BufTy).Contents (Elt F) → (⟨S8192, .i32⟩ : BufTy).Contents (Elt F)),
    binary main_v57 main_v66 main_v67 (addi : (⟨S8192, .i32⟩ : BufTy).Contents (Elt F) → (⟨S8192, .i32⟩ : BufTy).Contents (Elt F) → (⟨S8192, .i32⟩ : BufTy).Contents (Elt F)),
    ternary main_v65 main_v67 main_v57 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v63 main_v69 (broadcastInDim S8192x1 ![0] Facts₀.bcast_S8192_S8192x1_0 : (⟨S8192, .i32⟩ : BufTy).Contents (Elt F) → (⟨S8192x1, .i32⟩ : BufTy).Contents (Elt F)),
    unary main_v68 main_v70 (broadcastInDim S8192x1 ![0] Facts₀.bcast_S8192_S8192x1_0 : (⟨S8192, .i32⟩ : BufTy).Contents (Elt F) → (⟨S8192x1, .i32⟩ : BufTy).Contents (Elt F)),
    binary main_v69 main_v70 main_v71 ((fun a b => concatenate S8192x2 1 [⟨S8192x1, a⟩, ⟨S8192x1, b⟩] Facts₀.concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    ternary main_v56 main_v71 main_v58 main_v72 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)),
    unary main_v38 main_v73 (broadcastInDim S1x8x32x32 ![1, 2, 3] Facts₀.bcast_S8x32x32_S1x8x32x32_1_2_3 : (⟨S8x32x32, .f32⟩ : BufTy).Contents (Elt F) → (⟨S1x8x32x32, .f32⟩ : BufTy).Contents (Elt F)),
    reshape main_v72 main_v74 rfl Facts₀.shapeCasts_S8192x8192_S8192x8x32x32,
    nary ![main_v73, main_v44, main_v74] main_v75 (fun u => concatenate S8256x8x32x32 0 [⟨S1x8x32x32, u 0⟩, ⟨S63x8x32x32, u 1⟩, ⟨S8192x8x32x32, u 2⟩] Facts₀.concatenates_S1x8x32x32_S63x8x32x32_S8192x8x32x32_S8256x8x32x32_d0) ]

/-- @main is that straight line: with the outlined functions unfolded at their calls and the two windows joined, both
    sides are the same chain of operations, by definitional unfolding alone. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., unary_bufs_sub .., nullary_bufs_sub .., binary_bufs_sub .., unary_bufs_sub .., reshape_bufs_sub ..,
    binary_bufs_sub .., unary_bufs_sub .., reshape_bufs_sub .., binary_bufs_sub .., binary_bufs_sub .., nullary_bufs_sub ..,
    unary_bufs_sub .., binary_bufs_sub .., unary_bufs_sub .., nullary_bufs_sub .., unary_bufs_sub .., binary_bufs_sub ..,
    unary_bufs_sub .., binary_bufs_sub .., binary_bufs_sub .., binary_bufs_sub .., binary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., reshape_bufs_sub .., binary_bufs_sub .., binary_bufs_sub ..,
    binary_bufs_sub .., unary_bufs_sub .., reshape_bufs_sub .., binary_bufs_sub .., binary_bufs_sub .., unary_bufs_sub ..,
    binary_bufs_sub .., binary_bufs_sub .., unary_bufs_sub .., unary_bufs_sub .., binary_bufs_sub .., reshape_bufs_sub ..,
    nullary_bufs_sub .., unary_bufs_sub .., binary_bufs_sub .., nullary_bufs_sub .., unary_bufs_sub .., binary_bufs_sub ..,
    reshape_bufs_sub .., unary_bufs_sub .., nullary_bufs_sub .., unary_bufs_sub .., binary_bufs_sub .., nullary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., unary_bufs_sub ..,
    nullary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., ternary_bufs_sub .., unary_bufs_sub ..,
    reshape_bufs_sub .., nary_bufs_sub ..⟩

set_option maxRecDepth 8192 in
/-- Every operation determines its results. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation writes the argument: its buffer ends as launched. -/
theorem arg0_eq (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, reshape_writes, nary_writes,
      Finset.mem_singleton]
    repeat' apply And.intro
    all_goals exact devRef_ne_of_ne (by decide)))

/-- From any memory with zero counters every weakly fair execution of @main terminates, the result buffer at the
    operations' fold over the launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
          = after (ops (F := F)) (launchContents m c) (Proc.devRef .tc main_v75)
      ∧ r.2.mem ((c.tc : Thread nD τ).loc main_arg0) = m ((c.tc : Thread nD τ).loc main_arg0) :=
  (θ_run defs _ _).mono (fun _ h c => ⟨h c main_v75, (h c main_arg0).trans (arg0_eq _)⟩)
    (run_seq scopedRefs_eq scopedSems_eq defs main (fun _ => ops) main_eq (fun _ => ops_sub) m ρ
      (fun _ => List.forall_iff_forall_mem.mp ops_fresh))

end Cert.ReferenceIdeal.RefRun

end
-- ==== Proof.RStages.lean ====
/-
  The reference's host program as named stages of the argument X ([64, 8, 32, 32], extended reals).

  Each definition is one or a few of its operations, composed in its own order: the radius (sum of |x| over the
  63 error rows), the centre, upper and lower bounds, the crossing and non-negative masks as floats, the slope,
  the offset, the new centre, the body weight and the scaled error rows; then the flat mask, the row table
  (prefix sum, minus one, clamp), the scattered updates and the index table of the scatter, the scattered
  [8192, 8192] array, and the final stack of head row, body rows and new rows.
-/
import proofs.«160533_j26998164423204_1_alg».proof.Proof.Gen.ReferenceIdeal
import proofs.«160533_j26998164423204_1_alg».proof.Proof.Spec

noncomputable section

namespace Cert.ReferenceIdeal.RS

open Cert.ReferenceIdeal Cert.ReferenceIdeal.Facts₀ Cert.ReferenceIdeal.Facts Idealize.ShloMosaic Idealize.ShloMosaic.ValueIdx

variable (X : S64x8x32x32.Idx → EReal)

/-- Zero, one half, one and two broadcast over the content shape. -/
def bz3 : FVec Ideal S8x32x32 .f32 := broadcastInDim S8x32x32 ![] bcast_S_S8x32x32 (constant (F := Ideal) S_ .f32 0x00000000#32)
def bh3 : FVec Ideal S8x32x32 .f32 := broadcastInDim S8x32x32 ![] bcast_S_S8x32x32 (id (constant (F := Ideal) S_ .f32 0x3F000000#32))
def b13 : FVec Ideal S8x32x32 .f32 := broadcastInDim S8x32x32 ![] bcast_S_S8x32x32 (constant (F := Ideal) S_ .f32 0x3F800000#32)
def b23 : FVec Ideal S8x32x32 .f32 := broadcastInDim S8x32x32 ![] bcast_S_S8x32x32 (constant (F := Ideal) S_ .f32 0x40000000#32)

/-- The 63 error rows. -/
def xs : FVec Ideal S63x8x32x32 .f32 := extractStridedSlice S63x8x32x32 ![1, 0, 0, 0] X slices_S64x8x32x32_S63x8x32x32_1_0_0_0
/-- The radius: the sum over the error rows of their absolute values. -/
def err : FVec Ideal S8x32x32 .f32 :=
  (fun x v => Host.reduceAdd x v reducesTo_S63x8x32x32_S8x32x32_d0 h_S_) (Host.absf (xs X)) (constant (F := Ideal) S_ .f32 0x00000000#32)
/-- The centre (row 0). -/
def x0 : FVec Ideal S8x32x32 .f32 :=
  shapeCast S8x32x32 (extractStridedSlice S1x8x32x32 ![0, 0, 0, 0] X slices_S64x8x32x32_S1x8x32x32_0_0_0_0) shapeCasts_S1x8x32x32_S8x32x32
def upA : FVec Ideal S8x32x32 .f32 := addf (x0 X) (err X)
def loA : FVec Ideal S8x32x32 .f32 := subf (x0 X) (err X)
/-- The crossing mask and the non-negative mask, as floats. -/
def cr : FVec Ideal S8x32x32 .f32 := uitofp .f32 (cmpf .olt (mulf (loA X) (upA X)) bz3)
def nn : FVec Ideal S8x32x32 .f32 := uitofp .f32 (cmpf .oge (loA X) bz3)
/-- The slope before and after the not-a-number guard. -/
def lam0 : FVec Ideal S8x32x32 .f32 := addf (nn X) (Host.divf (mulf (cr X) (upA X)) (subf (upA X) (loA X)))
def lam : FVec Ideal S8x32x32 .f32 := select (cmpf .une (lam0 X) (lam0 X)) bh3 (lam0 X)
/-- The offset and its half. -/
def del : FVec Ideal S8x32x32 .f32 := maximumf (mulf (Host.negf (lam X)) (loA X)) (mulf (subf b13 (lam X)) (upA X))
def dh : FVec Ideal S8x32x32 .f32 := Host.divf (del X) b23
/-- The new centre. -/
def head : FVec Ideal S8x32x32 .f32 := addf (mulf (addf (dh X) (mulf (lam X) (x0 X))) (cr X)) (mulf (x0 X) (nn X))
/-- The body weight and the scaled error rows. -/
def w : FVec Ideal S8x32x32 .f32 := addf (mulf (lam X) (cr X)) (nn X)
def body : FVec Ideal S63x8x32x32 .f32 :=
  mulf (xs X) (broadcastInDim S63x8x32x32 ![0, 1, 2, 3] bcast_S1x8x32x32_S63x8x32x32_0_1_2_3
    (broadcastInDim S1x8x32x32 ![1, 2, 3] bcast_S8x32x32_S1x8x32x32_1_2_3 (w X)))

/-- The flat mask, the flat condition "crosses", the flat half offset, the mask as words. -/
def crf : FVec Ideal S8192 .f32 := shapeCast S8192 (cr X) shapeCasts_S8x32x32_S8192
def cond : IVec S8192 1 := cmpf .ogt (crf X) (broadcastInDim S8192 ![] bcast_S_S8192 (constant (F := Ideal) S_ .f32 0x00000000#32))
def dhf : FVec Ideal S8192 .f32 := shapeCast S8192 (dh X) shapeCasts_S8x32x32_S8192
def ci : IVec S8192 32 := extui 32 (cond X) natLt_1_32
/-- The row table: prefix sum of the mask, minus one, clamped. -/
def rows : IVec S8192 32 := Cert.Zono.rowsOf reduceWindows_S8192_S8192_w8192s1p8191_0 h_S_ bcast_S_S_ bcast_S_S8192 (ci X)
/-- The scattered updates: the half offset where the position crosses, else zero. -/
def upd : FVec Ideal S8192 .f32 := select (cond X) (dhf X) (broadcastInDim S8192 ![] bcast_S_S8192 (id (constant (F := Ideal) S_ .f32 0x00000000#32)))

/-- The scatter's index table: column 0 the row (negative rows wrapped by 8192, as jnp's indexing normalises them), column 1
    the position itself (an iota, wrapped the same way). -/
def bI (b : BitVec 32) : IVec S8192 32 := broadcastInDim S8192 ![] bcast_S_S8192 (constantI S_ 32 b)
def ridx : IVec S8192 32 := select (cmpi .slt (rows X) (bI 0#32)) (addi (rows X) (bI 8192#32)) (rows X)
def iot : IVec S8192 32 := iotaInDim S8192 32 0
def cidx : IVec S8192 32 := select (cmpi .slt iot (bI 0#32)) (addi iot (bI 8192#32)) iot
def sidx : IVec S8192x2 32 :=
  (fun a b => concatenate S8192x2 1 [⟨S8192x1, a⟩, ⟨S8192x1, b⟩] concatenates_S8192x1_S8192x1_S8192x2_d1)
    (broadcastInDim S8192x1 ![0] bcast_S8192_S8192x1_0 (ridx X)) (broadcastInDim S8192x1 ![0] bcast_S8192_S8192x1_0 cidx)
/-- The new error rows, [8192, 8192]: update q written at (row q, q) of a zero array. -/
def tail2 : FVec Ideal S8192x8192 .f32 :=
  (fun x i u => Host.scatter scatter_S8192x8192_S8192x2_S8192_n_01_01_1 (fun _ b => b) x i u)
    (broadcastInDim S8192x8192 ![] bcast_S_S8192x8192 (constant (F := Ideal) S_ .f32 0x00000000#32)) (sidx X) (upd X)

/-- The result: head row, body rows, new rows stacked. -/
def RT : FVec Ideal S8256x8x32x32 .f32 :=
  (fun u : Fin 3 → _ => concatenate S8256x8x32x32 0 [⟨S1x8x32x32, broadcastInDim S1x8x32x32 ![1, 2, 3] bcast_S8x32x32_S1x8x32x32_1_2_3 (head X)⟩,
      ⟨S63x8x32x32, body X⟩, ⟨S8192x8x32x32, shapeCast S8192x8x32x32 (tail2 X) shapeCasts_S8192x8192_S8192x8x32x32⟩]
    concatenates_S1x8x32x32_S63x8x32x32_S8192x8x32x32_S8256x8x32x32_d0) (fun _ => ())

/-! ## Flat positions -/

/-- The flat (row-major) position of a content index (c, h, w). -/
def fl3 (j : S8x32x32.Idx) : Fin 8192 :=
  ⟨(j 0).val * 1024 + (j 1).val * 32 + (j 2).val, by
    have h0 : (j 0).val < 8 := (j 0).isLt
    have h1 : (j 1).val < 32 := (j 1).isLt
    have h2 : (j 2).val < 32 := (j 2).isLt
    omega⟩

/-- The flat position of a result index's three trailing coordinates. -/
def fl (i : S8256x8x32x32.Idx) : Fin 8192 :=
  ⟨(i 1).val * 1024 + (i 2).val * 32 + (i 3).val, by
    have h0 : (i 1).val < 8 := (i 1).isLt
    have h1 : (i 2).val < 32 := (i 2).isLt
    have h2 : (i 3).val < 32 := (i 3).isLt
    omega⟩

end Cert.ReferenceIdeal.RS

end
-- ==== Proof.RAfter.lean ====
/-
  The fold of the reference's operations at the result buffer is the stack of stages of the argument.
-/
import proofs.«160533_j26998164423204_1_alg».proof.Proof.RRun
import proofs.«160533_j26998164423204_1_alg».proof.Proof.RStages

noncomputable section

namespace Cert.ReferenceIdeal.RefRun

open Cert.ReferenceIdeal Cert.ReferenceIdeal.Gen Idealize.ShloMosaic.TcCoe Idealize.SL.Sem Idealize.ShloMosaic.StableHlo Cert.ReferenceIdeal.Facts₀ Cert.ReferenceIdeal.Facts Idealize.ShloMosaic Idealize.ShloMosaic.ValueIdx

/-- A two-piece concatenation with the pieces as plain arguments. -/
private def cat2 {α : Type} (t : Shape) (a : Fin t.rank) (s₁ s₂ : Shape) (h : Shape.Concatenates [s₁, s₂] t a)
    (x : s₁.Idx → α) (y : s₂.Idx → α) : t.Idx → α := concatenate t a [⟨s₁, x⟩, ⟨s₂, y⟩] h
private theorem cat2_fold {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- The last operation's result: the three pieces stacked, each piece the contents at its own reference. -/
private theorem stack_result (G : Valuation τ sig (Elt Ideal)) (hxs hy) :
    (nary (τ := τ) ![main_v73, main_v44, main_v74] main_v75
        (fun u => concatenate S8256x8x32x32 0 [⟨S1x8x32x32, u 0⟩, ⟨S63x8x32x32, u 1⟩, ⟨S8192x8x32x32, u 2⟩]
          Facts₀.concatenates_S1x8x32x32_S63x8x32x32_S8192x8x32x32_S8256x8x32x32_d0) hxs hy).result G (Proc.devRef .tc main_v75)
      = concatenate S8256x8x32x32 0 [⟨S1x8x32x32, G (Proc.devRef .tc main_v73)⟩, ⟨S63x8x32x32, G (Proc.devRef .tc main_v44)⟩,
          ⟨S8192x8x32x32, G (Proc.devRef .tc main_v74)⟩]
          Facts₀.concatenates_S1x8x32x32_S63x8x32x32_S8192x8x32x32_S8256x8x32x32_d0 := by
  rw [nary_result]; rfl

/-- The three pieces of the stack after the operations: the head row, the body rows, the new rows. -/
private theorem after_v73 (m : (ℓ : Loc nD τ sig) → Buf (Elt Ideal) ℓ) (c : Dev nD) :
    (after (ops (F := Ideal)) (launchContents m c) (Proc.devRef .tc main_v73) : S1x8x32x32.Idx → EReal)
      = broadcastInDim S1x8x32x32 ![1, 2, 3] Facts₀.bcast_S8x32x32_S1x8x32x32_1_2_3 (Cert.ReferenceIdeal.RS.head (m ((c.tc : Thread nD τ).loc main_arg0))) := by
  simp (disch := decide) only [after_cons, after_nil, cat2_fold,
      nullary_result', unary_result', binary_result', ternary_result', reshape_result',
      nullary_result_ne', unary_result_ne', binary_result_ne', ternary_result_ne', reshape_result_ne', nary_result_ne']
  rfl

private theorem after_v44 (m : (ℓ : Loc nD τ sig) → Buf (Elt Ideal) ℓ) (c : Dev nD) :
    (after (ops (F := Ideal)) (launchContents m c) (Proc.devRef .tc main_v44) : S63x8x32x32.Idx → EReal)
      = Cert.ReferenceIdeal.RS.body (m ((c.tc : Thread nD τ).loc main_arg0)) := by
  simp (disch := decide) only [after_cons, after_nil, cat2_fold,
      nullary_result', unary_result', binary_result', ternary_result', reshape_result',
      nullary_result_ne', unary_result_ne', binary_result_ne', ternary_result_ne', reshape_result_ne', nary_result_ne']
  rfl

private theorem after_v74 (m : (ℓ : Loc nD τ sig) → Buf (Elt Ideal) ℓ) (c : Dev nD) :
    (after (ops (F := Ideal)) (launchContents m c) (Proc.devRef .tc main_v74) : S8192x8x32x32.Idx → EReal)
      = shapeCast S8192x8x32x32 (Cert.ReferenceIdeal.RS.tail2 (m ((c.tc : Thread nD τ).loc main_arg0))) Facts₀.shapeCasts_S8192x8192_S8192x8x32x32 := by
  simp (disch := decide) only [after_cons, after_nil, cat2_fold,
      nullary_result', unary_result', binary_result', ternary_result', reshape_result',
      nullary_result_ne', unary_result_ne', binary_result_ne', ternary_result_ne', reshape_result_ne', nary_result_ne']
  rfl

/-- The result buffer after the operations, at Ideal, is `RS.RT` of the argument's launch contents. -/
theorem after_eq (m : (ℓ : Loc nD τ sig) → Buf (Elt Ideal) ℓ) (c : Dev nD) :
    (after (ops (F := Ideal)) (launchContents m c) (Proc.devRef .tc main_v75) : S8256x8x32x32.Idx → EReal)
      = Cert.ReferenceIdeal.RS.RT (m ((c.tc : Thread nD τ).loc main_arg0)) := by
  have h73 := after_v73 m c
  have h44 := after_v44 m c
  have h74 := after_v74 m c
  simp only [after_cons, after_nil] at h73 h44 h74 ⊢
  simp (disch := decide) only [nary_result_ne'] at h73 h44 h74
  rw [stack_result, h73, h44, h74]
  rfl

end Cert.ReferenceIdeal.RefRun

end
-- ==== Proof.RFloat.lean ====
/-
  The reference's float stages read at a content index j = (c, h, w).

  With q the flat position of j, a the centre x(0, q) and e the radius at q (both read off the argument with its
  trailing axes merged), each stage at j is the reference-order scalar function of (a, e).
-/
import proofs.«160533_j26998164423204_1_alg».proof.Proof.RStages
import Idealize.ShloMosaic.Lib.Pipeline.Value
import Idealize.ShloMosaic.Lib.ValueLayout
import Idealize.ShloMosaic.PureOps.Ideal.Laws

noncomputable section

namespace Cert.ReferenceIdeal.RS

open Cert.ReferenceIdeal Cert.ReferenceIdeal.Facts₀ Cert.ReferenceIdeal.Facts Idealize.ShloMosaic Idealize.ShloMosaic.ValueIdx

variable (X : S64x8x32x32.Idx → EReal)

/-- The centre and the radius at the flat position of j. -/
abbrev A (j : S8x32x32.Idx) : EReal := Cert.Zono.a2 (Cert.Zono.x2 X) (fl3 j)
abbrev E (j : S8x32x32.Idx) : EReal := Cert.Zono.er2 (Cert.Zono.x2 X) (fl3 j)

/-- An entry of the argument is the entry of its merged form at the flat position. -/
theorem X_apply (r : Fin 64) (j : S8x32x32.Idx) (i : S64x8x32x32.Idx)
    (h0 : (i 0).val = r.val) (h1 : (i 1).val = (j 0).val) (h2 : (i 2).val = (j 1).val) (h3 : (i 3).val = (j 2).val) :
    X i = Cert.Zono.x2 X (ix2 r (fl3 j)) := by
  unfold Cert.Zono.x2
  refine (shapeCast_apply X _ (ix2 r (fl3 j)) i ?_).symm
  rw [Shape.rowMajor_val_four, Shape.rowMajor_val_two]
  show (((i 0).val * 8 + (i 1).val) * 32 + (i 2).val) * 32 + (i 3).val
    = r.val * 8192 + ((j 0).val * 1024 + (j 1).val * 32 + (j 2).val)
  omega

theorem x0_apply (j : S8x32x32.Idx) : x0 X j = A X j := by
  have e0 : (j 0).val < 8 := (j 0).isLt
  have e1 : (j 1).val < 32 := (j 1).isLt
  have e2 : (j 2).val < 32 := (j 2).isLt
  show x0 X j = Cert.Zono.x2 X (ix2 (0 : Fin 64) (fl3 j))
  unfold x0
  refine (shapeCast_apply _ _ j (ix4 (0 : Fin 1) (⟨(j 0).val, e0⟩ : Fin 8) (⟨(j 1).val, e1⟩ : Fin 32) (⟨(j 2).val, e2⟩ : Fin 32)) ?_).trans ?_
  · rw [Shape.rowMajor_val_four, Shape.rowMajor_val_three]
    show ((0 * 8 + (j 0).val) * 32 + (j 1).val) * 32 + (j 2).val = ((j 0).val * 32 + (j 1).val) * 32 + (j 2).val
    omega
  refine (extractStridedSlice_apply _ _ _ _ (ix4 (0 : Fin 64) (⟨(j 0).val, e0⟩ : Fin 8) (⟨(j 1).val, e1⟩ : Fin 32) (⟨(j 2).val, e2⟩ : Fin 32)) ?_).trans ?_
  · intro a
    match a with
    | ⟨0, _⟩ => rfl
    | ⟨1, _⟩ => show (j 0).val = 0 + (j 0).val; omega
    | ⟨2, _⟩ => show (j 1).val = 0 + (j 1).val; omega
    | ⟨3, _⟩ => show (j 2).val = 0 + (j 2).val; omega
  exact X_apply X 0 j _ rfl rfl rfl rfl

theorem err_apply (j : S8x32x32.Idx) : err X j = E X j := by
  have e0 : (j 0).val < 8 := (j 0).isLt
  have e1 : (j 1).val < 32 := (j 1).isLt
  have e2 : (j 2).val < 32 := (j 2).isLt
  have hR : S63x8x32x32.Reduces [0] S8x32x32 := by decide
  show Ideal.hostReduceAdd reducesTo_S63x8x32x32_S8x32x32_d0 (Host.absf (xs X)) (Ideal.ofBits .f32 0x00000000#32) j = _
  rw [Ideal.hostReduceAdd_single _ hR, Ideal.ofBits_zero_f32, zero_add]
  show (∑ k : Fin 63, Host.absf (xs X) (hR.lift j k))
    = ∑ e : Fin 63, max (Cert.Zono.xe2 (Cert.Zono.x2 X) e (fl3 j)) (-(Cert.Zono.xe2 (Cert.Zono.x2 X) e (fl3 j)))
  refine Finset.sum_congr rfl fun k _ => ?_
  have hx : xs X (hR.lift j k) = Cert.Zono.xe2 (Cert.Zono.x2 X) k (fl3 j) := by
    unfold xs Cert.Zono.xe2
    refine (extractStridedSlice_apply _ _ _ _
      (ix4 (⟨k.val + 1, by omega⟩ : Fin 64) (⟨(j 0).val, e0⟩ : Fin 8) (⟨(j 1).val, e1⟩ : Fin 32) (⟨(j 2).val, e2⟩ : Fin 32)) ?_).trans ?_
    · intro a
      match a with
      | ⟨0, _⟩ => show k.val + 1 = 1 + k.val; omega
      | ⟨1, _⟩ => show (j 0).val = 0 + (j 0).val; omega
      | ⟨2, _⟩ => show (j 1).val = 0 + (j 1).val; omega
      | ⟨3, _⟩ => show (j 2).val = 0 + (j 2).val; omega
    exact X_apply X _ j _ rfl rfl rfl rfl
  show max (xs X (hR.lift j k)) (-(xs X (hR.lift j k))) = _
  rw [hx]

/-- The broadcast constants read at an index are the constants. -/
private theorem bz3_apply (j : S8x32x32.Idx) : bz3 j = Cert.Zono.Z := rfl
private theorem bh3_apply (j : S8x32x32.Idx) : bh3 j = Cert.Zono.HALF := rfl
private theorem b13_apply (j : S8x32x32.Idx) : b13 j = Cert.Zono.ONE := rfl
private theorem b23_apply (j : S8x32x32.Idx) : b23 j = Cert.Zono.TWO := rfl

/-- The upper and lower bounds at j are a + e and a - e. -/
private theorem upA_apply (j : S8x32x32.Idx) : upA X j = Cert.Zono.up (A X j) (E X j) := by
  show x0 X j + err X j = _
  rw [x0_apply, err_apply]; rfl
private theorem loA_apply (j : S8x32x32.Idx) : loA X j = Cert.Zono.lo (A X j) (E X j) := by
  show x0 X j - err X j = _
  rw [x0_apply, err_apply]; rfl

theorem cr_apply (j : S8x32x32.Idx) : cr X j = Cert.Zono.crR (A X j) (E X j) := by
  show (((Ideal.cmp .olt (loA X j * upA X j) (bz3 j)).toNat : ℝ) : EReal) = _
  rw [loA_apply, upA_apply, bz3_apply]; rfl
theorem nn_apply (j : S8x32x32.Idx) : nn X j = Cert.Zono.nnR (A X j) (E X j) := by
  show (((Ideal.cmp .oge (loA X j) (bz3 j)).toNat : ℝ) : EReal) = _
  rw [loA_apply, bz3_apply]; rfl

/-- The slope before the guard. -/
private theorem lam0_apply (j : S8x32x32.Idx) : lam0 X j = Cert.Zono.lam0R (A X j) (E X j) := by
  show nn X j + Ideal.div (cr X j * upA X j) (upA X j - loA X j) = _
  rw [nn_apply, cr_apply, upA_apply, loA_apply]; rfl
theorem lam_apply (j : S8x32x32.Idx) : lam X j = Cert.Zono.lamR (A X j) (E X j) := by
  show Scalar.select (Ideal.cmp .une (lam0 X j) (lam0 X j)) (bh3 j) (lam0 X j) = _
  rw [lam0_apply, bh3_apply]; rfl

/-- The offset. -/
private theorem del_apply (j : S8x32x32.Idx) : del X j = Cert.Zono.delR (A X j) (E X j) := by
  show max ((-(lam X j)) * loA X j) ((b13 j - lam X j) * upA X j) = _
  rw [lam_apply, loA_apply, upA_apply, b13_apply]; rfl
theorem dh_apply (j : S8x32x32.Idx) : dh X j = Cert.Zono.dhR (A X j) (E X j) := by
  show Ideal.div (del X j) (b23 j) = _
  rw [del_apply, b23_apply]; rfl
theorem head_apply (j : S8x32x32.Idx) : head X j = Cert.Zono.headR (A X j) (E X j) := by
  show (dh X j + lam X j * x0 X j) * cr X j + x0 X j * nn X j = _
  rw [dh_apply, lam_apply, x0_apply, cr_apply, nn_apply]; rfl
theorem w_apply (j : S8x32x32.Idx) : w X j = Cert.Zono.wR (A X j) (E X j) := by
  show lam X j * cr X j + nn X j = _
  rw [lam_apply, cr_apply, nn_apply]; rfl

end Cert.ReferenceIdeal.RS

end
-- ==== Proof.ScalarLaws.lean ====
/-
  The two orders of operations give the same numbers.

  cross and nonneg are 0 or 1 in both programs (a one-bit comparison widened, read signed in one program and
  unsigned in the other).  When cross = 1 the two slopes are literally the same expression after 1 * u = u.  When
  cross = 0 the kernel's slope is nonneg + 0 * (u / d) = nonneg, the reference's is nonneg + 0 / d, which is
  nonneg unless d = 0, where 0 / 0 is the bottom element; but then head, body weight and the scattered value all
  multiply the slope's contribution by cross = 0 (anything times 0 is 0 on the extended reals), or select it away.
-/
import proofs.«160533_j26998164423204_1_alg».proof.Proof.Spec

noncomputable section

namespace Cert.Zono

open Idealize.ShloMosaic

/-- The float word 0x00000000 is the number zero. -/
private theorem Z_eq : Z = 0 := by simp [Ideal.ofBits, Ideal.ieee]

/-- A one-bit word is 0 or 1. -/
private theorem bit_cases (b : BitVec 1) : b = 0#1 ∨ b = 1#1 := BitVec.eq_zero_or_eq_one b

/-- A one-bit word widened to 32 bits without sign and read signed is the word read unsigned. -/
private theorem bit_widen (b : BitVec 1) : (((b.setWidth 32).toInt : ℝ)) = ((b.toNat : ℝ)) := by
  have h : (b.setWidth 32).toInt = ((b.toNat : ℕ) : ℤ) := by
    rcases bit_cases b with h | h <;> subst h <;> decide
  rw [h, Int.cast_natCast]

theorem crK_eq_crR (a e : EReal) : crK a e = crR a e := by
  unfold crK crR; rw [bit_widen]
theorem nnK_eq_nnR (a e : EReal) : nnK a e = nnR a e := by
  unfold nnK nnR; rw [bit_widen]
/-- cross is 0 or 1. -/
theorem crR_cases (a e : EReal) : crR a e = 0 ∨ crR a e = 1 := by
  unfold crR
  rcases bit_cases (Ideal.cmp .olt (lo a e * up a e) Z) with h | h
  · left; rw [h]; simp
  · right; rw [h]; simp

/-- No extended real differs from itself: the select on "x ≠ x" keeps its second operand. -/
private theorem lamK_eq (a e : EReal) : lamK a e = lam0K a e := by
  unfold lamK
  have h : Ideal.cmp .one (lam0K a e) (lam0K a e) = 0#1 := by simp [Ideal.cmp]
  rw [h, ValueIdx.select_zero]
private theorem lamR_eq (a e : EReal) : lamR a e = lam0R a e := by
  unfold lamR
  have h : Ideal.cmp .une (lam0R a e) (lam0R a e) = 0#1 := by simp [Ideal.cmp]
  rw [h, ValueIdx.select_zero]

/-- With cross = 1 the two slopes are the same expression. -/
private theorem lam_eq_of_one (a e : EReal) (h : crR a e = 1) : lamK a e = lamR a e := by
  rw [lamK_eq, lamR_eq]; unfold lam0K lam0R
  rw [crK_eq_crR, nnK_eq_nnR, h, one_mul, one_mul]
private theorem del_eq_of_one (a e : EReal) (h : crR a e = 1) : delK a e = delR a e := by
  unfold delK delR
  rw [lam_eq_of_one a e h, Z_eq, zero_sub]

/-- 1 is above the zero word, 0 is not. -/
private theorem cond_one : Ideal.cmp .ogt (1 : EReal) Z = 1#1 := by
  rw [Z_eq]; simp [Ideal.cmp]
private theorem cond_zero : Ideal.cmp .ogt (0 : EReal) Z = 0#1 := by
  rw [Z_eq]; simp [Ideal.cmp]

theorem headK_eq_headR (a e : EReal) : headK a e = headR a e := by
  unfold headK headR
  rcases crR_cases a e with h | h
  · rw [crK_eq_crR, nnK_eq_nnR, h, mul_zero, mul_zero]
  · rw [del_eq_of_one a e h, lam_eq_of_one a e h, crK_eq_crR, nnK_eq_nnR]
theorem wK_eq_wR (a e : EReal) : wK a e = wR a e := by
  unfold wK wR
  rcases crR_cases a e with h | h
  · rw [crK_eq_crR, nnK_eq_nnR, h, mul_zero, mul_zero]
  · rw [lam_eq_of_one a e h, crK_eq_crR, nnK_eq_nnR]
theorem valK_eq_valR (a e : EReal) : valK a e = valR a e := by
  unfold valK valR condR dhK dhR
  rcases crR_cases a e with h | h
  · rw [crK_eq_crR, h, mul_zero, cond_zero, ValueIdx.select_zero, Z_eq]
  · rw [crK_eq_crR, h, mul_one, cond_one, ValueIdx.select_one, del_eq_of_one a e h]

/-- The words of 0 and 1 rounded toward zero. -/
private theorem fptosi_zero : Ideal.fptosi 32 (0 : EReal) = 0#32 := by
  rw [← EReal.coe_zero, Ideal.fptosi, Ideal.toIntClamped_coe]; norm_num
private theorem fptosi_one : Ideal.fptosi 32 (1 : EReal) = 1#32 := by
  rw [← EReal.coe_one, Ideal.fptosi, Ideal.toIntClamped_coe]; norm_num

theorem ciK_eq_ciR (a e : EReal) : ciK a e = ciR a e := by
  unfold ciK ciR condR
  rcases crR_cases a e with h | h
  · rw [crK_eq_crR, h, cond_zero, fptosi_zero]; decide
  · rw [crK_eq_crR, h, cond_one, fptosi_one]; decide

end Cert.Zono

end
-- ==== Proof.RLow.lean ====
/-
  The result's first 64 rows: the head row and the scaled error rows.

  Row 0 of the stack is the new centre; row R in 1..63 is error row R times the body weight.  In the kernel's order
  of operations these are the same numbers (the scalar laws), so the stack's first 64 rows are the head-and-body
  array of the specification.
-/
import proofs.«160533_j26998164423204_1_alg».proof.Proof.RFloat
import proofs.«160533_j26998164423204_1_alg».proof.Proof.ScalarLaws
import Idealize.ShloMosaic.Lib.Pipeline.Value
import Idealize.ShloMosaic.Lib.ValueLayout

noncomputable section

namespace Cert.ReferenceIdeal.RS

open Cert.ReferenceIdeal Cert.ReferenceIdeal.Facts₀ Cert.ReferenceIdeal.Facts Idealize.ShloMosaic Idealize.ShloMosaic.ValueIdx

variable (X : S64x8x32x32.Idx → EReal)

/-- The head-and-body array at row 0 is the new centre. -/
private theorem hb2_row0 (x : Cert.Zono.S2.Idx → EReal) (q : Fin 8192) (h0 : 0 < 64) :
    Cert.Zono.hb2 x (ix2 (⟨0, h0⟩ : Fin 64) q) = Cert.Zono.headK (Cert.Zono.a2 x q) (Cert.Zono.er2 x q) := by
  unfold Cert.Zono.hb2
  exact if_pos rfl

/-- The head-and-body array at a row past 0 is that row's entry times the body weight. -/
private theorem hb2_rowpos (x : Cert.Zono.S2.Idx → EReal) (r : Fin 64) (q : Fin 8192) (hr : r.val ≠ 0) :
    Cert.Zono.hb2 x (ix2 r q) = x (ix2 r q) * Cert.Zono.wK (Cert.Zono.a2 x q) (Cert.Zono.er2 x q) := by
  unfold Cert.Zono.hb2
  exact if_neg hr

/-- Row 0 of the stack is the first piece: the new centre broadcast to a leading unit axis. -/
private theorem RT_row0 (p : Fin 8) (y : Fin 32) (z : Fin 32) :
    RT X (ix4 (0 : Fin 8256) p y z) = head X (ix3 p y z) := by
  unfold RT
  refine (concatenate_apply_piece (t := S8256x8x32x32) 0 _ _ (ix4 (0 : Fin 8256) p y z) 0 ?_ S1x8x32x32 (broadcastInDim S1x8x32x32 ![1, 2, 3] bcast_S8x32x32_S1x8x32x32_1_2_3 (head X)) ?_ rfl 0 ?_
    (ix4 (0 : Fin 1) p y z) ?_ ?_).trans ?_
  · exact Nat.zero_lt_succ _
  · rfl
  · rfl
  · intro b hb
    match b with
    | ⟨0, _⟩ => exact absurd rfl hb
    | ⟨1, _⟩ => rfl
    | ⟨2, _⟩ => rfl
    | ⟨3, _⟩ => rfl
  · rfl
  · refine broadcastInDim_apply _ _ _ _ (ix3 p y z) fun a => ?_
    match a with
    | ⟨0, _⟩ => rfl
    | ⟨1, _⟩ => rfl
    | ⟨2, _⟩ => rfl

/-- An error row of the argument: row r of the 63 is row r + 1 of the 64. -/
private theorem xs_apply (r : Fin 63) (p : Fin 8) (y : Fin 32) (z : Fin 32) :
    xs X (ix4 r p y z) = X (ix4 (⟨r.val + 1, by omega⟩ : Fin 64) p y z) := by
  unfold xs
  refine extractStridedSlice_apply _ _ _ _ _ fun a => ?_
  match a with
  | ⟨0, _⟩ => show r.val + 1 = 1 + r.val; omega
  | ⟨1, _⟩ => show p.val = 0 + p.val; omega
  | ⟨2, _⟩ => show y.val = 0 + y.val; omega
  | ⟨3, _⟩ => show z.val = 0 + z.val; omega

/-- The body weight broadcast over the 63 rows reads the weight at the content index. -/
private theorem wb_apply (r : Fin 63) (p : Fin 8) (y : Fin 32) (z : Fin 32) :
    (broadcastInDim S63x8x32x32 ![0, 1, 2, 3] bcast_S1x8x32x32_S63x8x32x32_0_1_2_3
      (broadcastInDim S1x8x32x32 ![1, 2, 3] bcast_S8x32x32_S1x8x32x32_1_2_3 (w X))) (ix4 r p y z) = w X (ix3 p y z) := by
  refine (broadcastInDim_apply _ _ _ _ (ix4 (0 : Fin 1) p y z) fun a => ?_).trans ?_
  · match a with
    | ⟨0, _⟩ => rfl
    | ⟨1, _⟩ => rfl
    | ⟨2, _⟩ => rfl
    | ⟨3, _⟩ => rfl
  · refine broadcastInDim_apply _ _ _ _ (ix3 p y z) fun a => ?_
    match a with
    | ⟨0, _⟩ => rfl
    | ⟨1, _⟩ => rfl
    | ⟨2, _⟩ => rfl

/-- A scaled error row: error row r + 1 times the body weight. -/
private theorem body_apply (r : Fin 63) (p : Fin 8) (y : Fin 32) (z : Fin 32) :
    body X (ix4 r p y z) = X (ix4 (⟨r.val + 1, by omega⟩ : Fin 64) p y z) * w X (ix3 p y z) := by
  unfold body
  rw [mulf_apply, xs_apply, wb_apply]

private theorem succ_lt_rows (r : Fin 63) : r.val + 1 < 8256 := by omega
private theorem succ_lt_low (r : Fin 63) : r.val + 1 < 64 := by omega

/-- Row r + 1 of the stack (r below 63) is the second piece at row r. -/
private theorem RT_rowpos (r : Fin 63) (p : Fin 8) (y : Fin 32) (z : Fin 32) :
    RT X (ix4 (⟨r.val + 1, succ_lt_rows r⟩ : Fin 8256) p y z) = body X (ix4 r p y z) := by
  unfold RT
  refine concatenate_apply_piece (t := S8256x8x32x32) 0 _ _ (ix4 (⟨r.val + 1, succ_lt_rows r⟩ : Fin 8256) p y z) 1 ?_ S63x8x32x32 _ ?_ rfl 1 ?_
    (ix4 r p y z) ?_ ?_
  · exact Nat.succ_lt_succ (Nat.zero_lt_succ _)
  · rfl
  · rfl
  · intro b hb
    match b with
    | ⟨0, _⟩ => exact absurd rfl hb
    | ⟨1, _⟩ => rfl
    | ⟨2, _⟩ => rfl
    | ⟨3, _⟩ => rfl
  · show 1 + r.val = r.val + 1; omega

theorem RT_low (i : S8256x8x32x32.Idx) (h : (i 0).val < 64) :
    RT X i = Cert.Zono.hb2 (Cert.Zono.x2 X) (ix2 (⟨(i 0).val, h⟩ : Fin 64) (fl i)) := by
  obtain ⟨R, p, y, z, rfl⟩ : ∃ (R : Fin 8256) (p : Fin 8) (y : Fin 32) (z : Fin 32), i = ix4 R p y z :=
    ⟨i 0, i 1, i 2, i 3, eq_ix4 i⟩
  have hR : R.val < 64 := h
  by_cases h0 : R.val = 0
  · obtain rfl : R = 0 := Fin.ext h0
    show RT X (ix4 (0 : Fin 8256) p y z) = Cert.Zono.hb2 (Cert.Zono.x2 X) (ix2 (⟨0, by omega⟩ : Fin 64) (fl3 (ix3 p y z)))
    rw [hb2_row0, RT_row0, head_apply, Cert.Zono.headK_eq_headR]
  · obtain ⟨r, rfl⟩ : ∃ r : Fin 63, R = ⟨r.val + 1, succ_lt_rows r⟩ :=
      ⟨⟨R.val - 1, by omega⟩, Fin.ext (by show R.val = R.val - 1 + 1; omega)⟩
    show RT X (ix4 (⟨r.val + 1, succ_lt_rows r⟩ : Fin 8256) p y z)
      = Cert.Zono.hb2 (Cert.Zono.x2 X) (ix2 (⟨r.val + 1, succ_lt_low r⟩ : Fin 64) (fl3 (ix3 p y z)))
    rw [hb2_rowpos _ _ _ (Nat.succ_ne_zero _), RT_rowpos, body_apply,
      X_apply X (⟨r.val + 1, succ_lt_low r⟩ : Fin 64) (ix3 p y z) _ rfl rfl rfl rfl, w_apply, Cert.Zono.wK_eq_wR]

end Cert.ReferenceIdeal.RS

end
-- ==== Proof.ScatterLib.lean ====
/-
  A set-scatter of one value per column, read at an index.

  The reference writes update q at (row(q), q) of a zero [8192, 8192] array: the index table's column 1 is the
  position q itself and column 0 the target row.  Distinct updates land in distinct columns, so no two collide and
  the left fold over the updates reads, at (r, q), update q when row(q) = r and the operand otherwise.
-/
import proofs.«160533_j26998164423204_1_alg».proof.ReferenceIdeal
import Idealize.ShloMosaic.Lib.ValueIdx

noncomputable section

namespace Cert.ReferenceIdeal.ScatterRead

open Idealize.ShloMosaic Idealize.ShloMosaic.ValueIdx Cert.ReferenceIdeal

variable [Facts₀]

/-! ### A left fold of "write at a target" steps, read at one position -/

/-- If no step of the list targets position `i'`, the fold leaves the value there unchanged. -/
private theorem foldl_miss {ι β N : Type} (tgt : N → Option ι) (g : N → β)
    (step : (ι → β) → N → (ι → β))
    (hsome : ∀ r n i, tgt n = some i → step r n i = g n ∧ ∀ i', i' ≠ i → step r n i' = r i')
    (hnone : ∀ r n, tgt n = none → step r n = r)
    (i' : ι) (l : List N) (r : ι → β) (h : ∀ n ∈ l, tgt n ≠ some i') :
    l.foldl step r i' = r i' := by
  induction l generalizing r with
  | nil => rfl
  | cons n l ih =>
    rw [List.foldl_cons, ih _ (fun m hm => h m (List.mem_cons_of_mem _ hm))]
    have hn := h n List.mem_cons_self
    cases ht : tgt n with
    | none => rw [hnone r n ht]
    | some i =>
      have hne : i' ≠ i := fun e => hn (by rw [ht, e])
      exact (hsome r n i ht).2 i' hne

/-- If some step of the list targets position `i'` and all the steps that do write the same value `v`,
    the fold reads `v` there. -/
private theorem foldl_hit {ι β N : Type} (tgt : N → Option ι) (g : N → β)
    (step : (ι → β) → N → (ι → β))
    (hsome : ∀ r n i, tgt n = some i → step r n i = g n ∧ ∀ i', i' ≠ i → step r n i' = r i')
    (hnone : ∀ r n, tgt n = none → step r n = r)
    (i' : ι) (v : β) (l : List N) (r : ι → β) (hex : ∃ n ∈ l, tgt n = some i')
    (hv : ∀ n ∈ l, tgt n = some i' → g n = v) :
    l.foldl step r i' = v := by
  induction l generalizing r with
  | nil => obtain ⟨n, hn, _⟩ := hex; cases hn
  | cons n l ih =>
    rw [List.foldl_cons]
    by_cases hl : ∃ m ∈ l, tgt m = some i'
    · exact ih _ hl (fun m hm => hv m (List.mem_cons_of_mem _ hm))
    · rw [foldl_miss tgt g step hsome hnone i' l _ (fun m hm e => hl ⟨m, hm, e⟩)]
      obtain ⟨m, hm, hmt⟩ := hex
      rcases List.mem_cons.1 hm with rfl | hm'
      · rw [(hsome r m i' hmt).1]
        exact hv m List.mem_cons_self hmt
      · exact absurd ⟨m, hm', hmt⟩ hl

/-! ### Where update `q'` lands -/

local notation "dS" => scatter_S8192x8192_S8192x2_S8192_n_01_01_1

private theorem mem01 : ∀ a : Fin S8192x8192.rank, a ∈ ([0, 1] : List (Fin S8192x8192.rank)) := by decide
private theorem notKept : ∀ a : Fin S8192x8192.rank, a ∉ Shape.kept S8192x8192 [0, 1] := by decide

/-- The start on the row axis is the index table's column 0 at the update's position. -/
private theorem start0 (idx : IVec S8192x2 32) (q : Fin 8192) :
    ScatterDims.start dS (ix1 q) idx (0 : Fin 2) = (idx (ix2 q (0 : Fin 2))).toInt := by
  unfold ScatterDims.start
  have h : (0 : Fin 2) ∈ ScatterDims.scatterDimsToOperandDims dS := mem01 _
  rw [dif_pos h]
  congr 2
  funext b
  match b with
  | ⟨0, _⟩ => rfl
  | ⟨1, _⟩ => rfl

/-- The start on the column axis is the index table's column 1 at the update's position. -/
private theorem start1 (idx : IVec S8192x2 32) (q : Fin 8192) :
    ScatterDims.start dS (ix1 q) idx (1 : Fin 2) = (idx (ix2 q (1 : Fin 2))).toInt := by
  unfold ScatterDims.start
  have h : (1 : Fin 2) ∈ ScatterDims.scatterDimsToOperandDims dS := mem01 _
  rw [dif_pos h]
  congr 2
  funext b
  match b with
  | ⟨0, _⟩ => rfl
  | ⟨1, _⟩ => rfl

/-- Both operand axes are inserted window axes: the window coordinate is 0. -/
private theorem window_zero (q : Fin 8192) (a : Fin 2) :
    ScatterDims.window dS (ix1 q) a = 0 := by
  unfold ScatterDims.window
  have h : a ∉ ScatterDims.sKept dS := notKept a
  rw [dif_neg h]

/-- Update `q'` lands at (row(q'), q'): the row read off column 0 of the index table, the column the position itself. -/
private theorem resultIdx_eq (idx : IVec S8192x2 32)
    (hcol : ∀ q : Fin 8192, (idx (ix2 q (1 : Fin 2))).toInt = (q.val : Int))
    (hrow : ∀ q : Fin 8192, 0 ≤ (idx (ix2 q (0 : Fin 2))).toInt ∧ (idx (ix2 q (0 : Fin 2))).toInt < 8192)
    (q' : Fin 8192) :
    ScatterDims.resultIdx? dS (ix1 q') idx
      = some (ix2 (n0 := 8192) (n1 := 8192) ⟨(idx (ix2 q' (0 : Fin 2))).toInt.toNat, by have := hrow q'; omega⟩ q') := by
  have hb : ∀ a : Fin 2, 0 ≤ ScatterDims.start dS (ix1 q') idx a + ScatterDims.window dS (ix1 q') a ∧
      ScatterDims.start dS (ix1 q') idx a + ScatterDims.window dS (ix1 q') a < S8192x8192.size a := by
    intro a
    rw [window_zero]
    match a with
    | ⟨0, _⟩ =>
      show 0 ≤ ScatterDims.start dS (ix1 q') idx (0 : Fin 2) + ((0 : Nat) : Int) ∧
        ScatterDims.start dS (ix1 q') idx (0 : Fin 2) + ((0 : Nat) : Int) < ((8192 : Nat) : Int)
      rw [start0]; have := hrow q'; omega
    | ⟨1, _⟩ =>
      show 0 ≤ ScatterDims.start dS (ix1 q') idx (1 : Fin 2) + ((0 : Nat) : Int) ∧
        ScatterDims.start dS (ix1 q') idx (1 : Fin 2) + ((0 : Nat) : Int) < ((8192 : Nat) : Int)
      rw [start1, hcol]; have := q'.isLt; omega
  unfold ScatterDims.resultIdx?
  rw [dif_pos hb]
  congr 1
  funext a
  match a with
  | ⟨0, _⟩ =>
    apply Fin.ext
    show (ScatterDims.start dS (ix1 q') idx (0 : Fin 2) + ((ScatterDims.window dS (ix1 q') (0 : Fin 2) : Nat) : Int)).toNat
      = (idx (ix2 q' (0 : Fin 2))).toInt.toNat
    rw [window_zero, start0]; simp
  | ⟨1, _⟩ =>
    apply Fin.ext
    show (ScatterDims.start dS (ix1 q') idx (1 : Fin 2) + ((ScatterDims.window dS (ix1 q') (1 : Fin 2) : Nat) : Int)).toNat
      = q'.val
    rw [window_zero, start1, hcol]; simp

/-- Update `q'` lands at (r, q) exactly when it is update `q` and its row is `r`. -/
private theorem resultIdx_eq_iff (idx : IVec S8192x2 32)
    (hcol : ∀ q : Fin 8192, (idx (ix2 q (1 : Fin 2))).toInt = (q.val : Int))
    (hrow : ∀ q : Fin 8192, 0 ≤ (idx (ix2 q (0 : Fin 2))).toInt ∧ (idx (ix2 q (0 : Fin 2))).toInt < 8192)
    (q' r q : Fin 8192) :
    ScatterDims.resultIdx? dS (ix1 q') idx = some (ix2 r q)
      ↔ q' = q ∧ (idx (ix2 q (0 : Fin 2))).toInt = (r.val : Int) := by
  rw [resultIdx_eq idx hcol hrow q', Option.some_inj]
  constructor
  · intro h
    have h0 : (⟨(idx (ix2 q' (0 : Fin 2))).toInt.toNat, by have := hrow q'; omega⟩ : Fin 8192) = r := congrFun h (0 : Fin 2)
    have h1 : q' = q := congrFun h (1 : Fin 2)
    subst h1
    refine ⟨rfl, ?_⟩
    have := congrArg Fin.val h0
    have hr := hrow q'
    simp only at this
    omega
  · rintro ⟨rfl, hr⟩
    funext a
    match a with
    | ⟨0, _⟩ => exact Fin.ext (by show (idx (ix2 q' (0 : Fin 2))).toInt.toNat = r.val; omega)
    | ⟨1, _⟩ => rfl

/-- Reading the scatter at (r, q): the column-1 entries of the index table are the positions themselves (`hcol`),
    the column-0 entries are rows inside the operand (`hrow`). -/
theorem scatter_set_apply {α : Type} (x : S8192x8192.Idx → α) (idx : IVec S8192x2 32) (upd : S8192.Idx → α)
    (hcol : ∀ q : Fin 8192, (idx (ix2 q (1 : Fin 2))).toInt = (q.val : Int))
    (hrow : ∀ q : Fin 8192, 0 ≤ (idx (ix2 q (0 : Fin 2))).toInt ∧ (idx (ix2 q (0 : Fin 2))).toInt < 8192)
    (r q : Fin 8192) :
    Host.scatter scatter_S8192x8192_S8192x2_S8192_n_01_01_1 (fun _ b => b) x idx upd (ix2 r q)
      = if (idx (ix2 q (0 : Fin 2))).toInt = (r.val : Int) then upd (ix1 q) else x (ix2 r q) := by
  unfold Host.scatter
  -- every update index is `ix1` of its one coordinate
  have hix : ∀ n : Fin S8192.numel, ∃ q' : Fin 8192, S8192.rowMajor.symm n = ix1 q' :=
    fun n => ⟨S8192.rowMajor.symm n 0, eq_ix1 _⟩
  by_cases hr : (idx (ix2 q (0 : Fin 2))).toInt = (r.val : Int)
  · rw [if_pos hr]
    refine foldl_hit (fun n => ScatterDims.resultIdx? dS (S8192.rowMajor.symm n) idx)
      (fun n => upd (S8192.rowMajor.symm n)) _ ?_ ?_ (ix2 r q) (upd (ix1 q)) _ x ?_ ?_
    · intro ρ n i h
      dsimp only at h ⊢
      rw [h]
      exact ⟨if_pos rfl, fun i' hne => if_neg hne⟩
    · intro ρ n h
      dsimp only at h ⊢
      rw [h]
    · refine ⟨S8192.rowMajor (ix1 q), List.mem_finRange _, ?_⟩
      rw [Equiv.symm_apply_apply]
      exact (resultIdx_eq_iff idx hcol hrow q r q).2 ⟨rfl, hr⟩
    · intro n _ h
      obtain ⟨q', hq'⟩ := hix n
      rw [hq'] at h ⊢
      rw [((resultIdx_eq_iff idx hcol hrow q' r q).1 h).1]
  · rw [if_neg hr]
    refine foldl_miss (fun n => ScatterDims.resultIdx? dS (S8192.rowMajor.symm n) idx)
      (fun n => upd (S8192.rowMajor.symm n)) _ ?_ ?_ (ix2 r q) _ x ?_
    · intro ρ n i h
      dsimp only at h ⊢
      rw [h]
      exact ⟨if_pos rfl, fun i' hne => if_neg hne⟩
    · intro ρ n h
      dsimp only at h ⊢
      rw [h]
    · intro n _ h
      obtain ⟨q', hq'⟩ := hix n
      rw [hq'] at h
      exact hr ((resultIdx_eq_iff idx hcol hrow q' r q).1 h).2

end Cert.ReferenceIdeal.ScatterRead

end
-- ==== Proof.RTail.lean ====
/-
  The result's rows from 64 on: the new error rows.

  Row 64 + r is row r of the scattered array with its column axis split.  The scatter writes, for each position q,
  the update at (row q, q): the index table's second column is q itself and its first column is the row table,
  which the clamp keeps inside [0, 8191], so the wrap of negative indices does nothing.  The update is the half
  offset where the position crosses and zero elsewhere, which in the kernel's order of operations is the half
  offset times the mask; the mask as words is the same in both orders, hence so is the row table.
-/
import proofs.«160533_j26998164423204_1_alg».proof.Proof.RFloat
import proofs.«160533_j26998164423204_1_alg».proof.Proof.ScalarLaws
import proofs.«160533_j26998164423204_1_alg».proof.Proof.ScatterLib
import Idealize.ShloMosaic.Lib.Pipeline.Value
import Idealize.ShloMosaic.Lib.ValueLayout
import Idealize.ShloMosaic.Lib.StableHlo.Predicate

noncomputable section

namespace Cert.ReferenceIdeal.RS

open Cert.ReferenceIdeal Cert.ReferenceIdeal.Facts₀ Cert.ReferenceIdeal.Facts Idealize.ShloMosaic Idealize.ShloMosaic.ValueIdx

variable (X : S64x8x32x32.Idx → EReal)

/-! ### Words -/

private theorem toInt_8191 : (8191#32 : BitVec 32).toInt = 8191 := by decide
private theorem toInt_0 : (0#32 : BitVec 32).toInt = 0 := by decide

/-- A word clamped (signed) to [0, 8191] reads, signed, inside [0, 8191]. -/
private theorem clamp_bounds (y : BitVec 32) :
    0 ≤ (IntOp.minsi 8191#32 (IntOp.maxsi 0#32 y)).toInt ∧ (IntOp.minsi 8191#32 (IntOp.maxsi 0#32 y)).toInt < 8192 := by
  unfold IntOp.minsi IntOp.maxsi
  simp only [BitVec.slt, decide_eq_true_eq, toInt_0, toInt_8191]
  split_ifs <;> (try simp only [toInt_8191, toInt_0]) <;> omega

/-- The wrap of a negative index by 8192 does nothing to a word that reads non-negative. -/
private theorem wrap_id (v : BitVec 32) (hv : 0 ≤ v.toInt) :
    Scalar.select (IntOp.cmpi .slt v 0#32) (IntOp.addi v 8192#32) v = v := by
  have h : IntOp.cmpi .slt v 0#32 = 0#1 := by
    unfold IntOp.cmpi
    simp only [BitVec.slt, toInt_0]
    rw [decide_eq_false (by omega)]; rfl
  rw [h, select_zero]

/-- For a word reading inside [0, 8192) and a row below 8192: the word of the row is the word exactly when the word reads the row. -/
private theorem ofNat_eq_iff (r : Nat) (hr : r < 8192) (v : BitVec 32) (h0 : 0 ≤ v.toInt) (h1 : v.toInt < 8192) :
    BitVec.ofNat 32 r = v ↔ v.toInt = (r : Int) := by
  constructor
  · rintro rfl; exact Idealize.ShloMosaic.StableHlo.Predicate.toInt_ofNat_small r (by omega)
  · intro h
    apply BitVec.eq_of_toInt_eq
    rw [Idealize.ShloMosaic.StableHlo.Predicate.toInt_ofNat_small r (by omega), h]

/-- The `if` on "the word reads r" is the select on the word comparison. -/
private theorem if_eq_select {α : Type} (r : Nat) (hr : r < 8192) (v : BitVec 32) (h0 : 0 ≤ v.toInt) (h1 : v.toInt < 8192) (a b : α) :
    (if v.toInt = (r : Int) then a else b) = Scalar.select (IntOp.cmpi .eq (BitVec.ofNat 32 r) v) a b := by
  by_cases h : v.toInt = (r : Int)
  · rw [if_pos h, Idealize.ShloMosaic.StableHlo.Predicate.cmpi_eq_iff.2 ((ofNat_eq_iff r hr v h0 h1).2 h), select_one]
  · have hz : IntOp.cmpi .eq (BitVec.ofNat 32 r) v = 0#1 :=
      eq_zero_of_ne_one (fun e => h ((ofNat_eq_iff r hr v h0 h1).1 (Idealize.ShloMosaic.StableHlo.Predicate.cmpi_eq_iff.1 e)))
    rw [if_neg h, hz, select_zero]

/-! ### The index table of the scatter -/

/-- The row table reads inside [0, 8191]: it ends in a clamp. -/
private theorem rows_bounds (q : Fin 8192) : 0 ≤ (rows X (ix1 q)).toInt ∧ (rows X (ix1 q)).toInt < 8192 := by
  unfold rows Cert.Zono.rowsOf
  exact clamp_bounds _

/-- So the wrap of negative rows does nothing. -/
private theorem ridx_apply (q : Fin 8192) : ridx X (ix1 q) = rows X (ix1 q) := by
  show Scalar.select (IntOp.cmpi .slt (rows X (ix1 q)) 0#32) (IntOp.addi (rows X (ix1 q)) 8192#32) (rows X (ix1 q)) = _
  exact wrap_id _ (rows_bounds X q).1

/-- The position column is the position. -/
private theorem cidx_apply (q : Fin 8192) : cidx (ix1 q) = BitVec.ofNat 32 q.val := by
  show Scalar.select (IntOp.cmpi .slt (BitVec.ofNat 32 q.val) 0#32) (IntOp.addi (BitVec.ofNat 32 q.val) 8192#32) (BitVec.ofNat 32 q.val) = _
  exact wrap_id _ (by
    rw [Idealize.ShloMosaic.StableHlo.Predicate.toInt_ofNat_small q.val (by have := q.isLt; omega)]; omega)

/-- Column 0 of the index table is the row column. -/
private theorem sidx_col0 (q : Fin 8192) : sidx X (ix2 q (0 : Fin 2)) = ridx X (ix1 q) := by
  unfold sidx
  refine (concatenate_pair_apply_left (t := S8192x2) (s₁ := S8192x1) (s₂ := S8192x1) (1 : Fin 2) _ _ concatenates_S8192x1_S8192x1_S8192x2_d1 (ix2 q (0 : Fin 2)) rfl
    (ix2 q (0 : Fin 1)) ?_).trans ?_
  · intro b
    match b with
    | ⟨0, _⟩ => rfl
    | ⟨1, _⟩ => rfl
  · refine broadcastInDim_apply (s := S8192) (t := S8192x1) (![0] : Fin 1 → Fin 2) bcast_S8192_S8192x1_0 (ridx X) (ix2 q (0 : Fin 1)) (ix1 q) ?_
    intro a
    match a with
    | ⟨0, _⟩ => rfl

/-- Column 1 of the index table is the position column. -/
private theorem sidx_col1 (q : Fin 8192) : sidx X (ix2 q (1 : Fin 2)) = cidx (ix1 q) := by
  unfold sidx
  refine (concatenate_pair_apply_right (t := S8192x2) (s₁ := S8192x1) (s₂ := S8192x1) (1 : Fin 2) _ _ concatenates_S8192x1_S8192x1_S8192x2_d1 (ix2 q (1 : Fin 2)) rfl rfl
    (ix2 q (0 : Fin 1)) ?_ ?_).trans ?_
  · intro b hb
    match b, hb with
    | ⟨0, _⟩, _ => rfl
    | ⟨1, _⟩, hb => exact absurd rfl hb
  · rfl
  · refine broadcastInDim_apply (s := S8192) (t := S8192x1) (![0] : Fin 1 → Fin 2) bcast_S8192_S8192x1_0 cidx (ix2 q (0 : Fin 1)) (ix1 q) ?_
    intro a
    match a with
    | ⟨0, _⟩ => rfl

/-- The scattered array at (r, q): the update at q when the row table at q is the word r, else zero. -/
private theorem tail2_apply (r q : Fin 8192) :
    tail2 X (ix2 r q)
      = Scalar.select (IntOp.cmpi .eq (BitVec.ofNat 32 r.val) (rows X (ix1 q))) (upd X (ix1 q)) Cert.Zono.Z := by
  unfold tail2
  have hcol : ∀ q : Fin 8192, (sidx X (ix2 q (1 : Fin 2))).toInt = (q.val : Int) := fun q => by
    rw [sidx_col1, cidx_apply, Idealize.ShloMosaic.StableHlo.Predicate.toInt_ofNat_small _ (by have := q.isLt; omega)]
  have hrow : ∀ q : Fin 8192, 0 ≤ (sidx X (ix2 q (0 : Fin 2))).toInt ∧ (sidx X (ix2 q (0 : Fin 2))).toInt < 8192 := fun q => by
    rw [sidx_col0, ridx_apply]; exact rows_bounds X q
  refine (Cert.ReferenceIdeal.ScatterRead.scatter_set_apply _ (sidx X) (upd X) hcol hrow r q).trans ?_
  rw [sidx_col0, ridx_apply]
  exact if_eq_select r.val r.isLt _ (rows_bounds X q).1 (rows_bounds X q).2 _ _

/-! ### The updates and the mask words at a flat position -/

/-- A content index whose flat position is q. -/
private def jOf (q : Fin 8192) : S8x32x32.Idx :=
  ix3 (n0 := 8) (n1 := 32) (n2 := 32) ⟨q.val / 1024, by have := q.isLt; omega⟩ ⟨q.val / 32 % 32, Nat.mod_lt _ (by decide)⟩
    ⟨q.val % 32, Nat.mod_lt _ (by decide)⟩

private theorem fl3_jOf (q : Fin 8192) : fl3 (jOf q) = q := by
  apply Fin.ext
  show q.val / 1024 * 1024 + q.val / 32 % 32 * 32 + q.val % 32 = q.val
  omega

/-- The flat mask at q is the mask at that content index. -/
private theorem crf_apply (q : Fin 8192) : crf X (ix1 q) = cr X (jOf q) := by
  unfold crf
  refine shapeCast_apply (cr X) shapeCasts_S8x32x32_S8192 (ix1 q) (jOf q) ?_
  rw [Shape.rowMajor_val_three, Shape.rowMajor_val_one]
  show (q.val / 1024 * 32 + q.val / 32 % 32) * 32 + q.val % 32 = q.val
  omega

/-- The flat half offset at q is the half offset at that content index. -/
private theorem dhf_apply (q : Fin 8192) : dhf X (ix1 q) = dh X (jOf q) := by
  unfold dhf
  refine shapeCast_apply (dh X) shapeCasts_S8x32x32_S8192 (ix1 q) (jOf q) ?_
  rw [Shape.rowMajor_val_three, Shape.rowMajor_val_one]
  show (q.val / 1024 * 32 + q.val / 32 % 32) * 32 + q.val % 32 = q.val
  omega

/-- The flat condition "crosses" at q, in the reference's order of operations. -/
private theorem cond_apply (q : Fin 8192) :
    cond X (ix1 q) = Cert.Zono.condR (Cert.Zono.a2 (Cert.Zono.x2 X) q) (Cert.Zono.er2 (Cert.Zono.x2 X) q) := by
  have h : cond X (ix1 q) = Ideal.cmp .ogt (crf X (ix1 q)) Cert.Zono.Z := rfl
  rw [h, crf_apply, cr_apply]
  unfold A E
  rw [fl3_jOf]
  rfl

/-- The update at q is the kernel-order value at q. -/
private theorem upd_apply (q : Fin 8192) : upd X (ix1 q) = Cert.Zono.val2 (Cert.Zono.x2 X) (ix1 q) := by
  have h : upd X (ix1 q) = Scalar.select (cond X (ix1 q)) (dhf X (ix1 q)) Cert.Zono.Z := rfl
  rw [h, cond_apply, dhf_apply, dh_apply]
  unfold A E
  rw [fl3_jOf]
  show Cert.Zono.valR _ _ = Cert.Zono.valK _ _
  exact (Cert.Zono.valK_eq_valR _ _).symm

/-- The mask as words is the same array in both orders of operations. -/
private theorem ci_eq : ci X = Cert.Zono.ci2 (Cert.Zono.x2 X) := by
  funext j
  obtain ⟨q, rfl⟩ : ∃ q : Fin 8192, j = ix1 q := ⟨j 0, eq_ix1 j⟩
  have h : ci X (ix1 q) = (cond X (ix1 q)).setWidth 32 := rfl
  rw [h, cond_apply]
  show Cert.Zono.ciR _ _ = Cert.Zono.ciK _ _
  exact (Cert.Zono.ciK_eq_ciR _ _).symm

/-- Hence so is the row table. -/
private theorem rows_eq :
    rows X = Cert.Zono.rowsOf reduceWindows_S8192_S8192_w8192s1p8191_0 h_S_ bcast_S_S_ bcast_S_S8192 (Cert.Zono.ci2 (Cert.Zono.x2 X)) := by
  unfold rows
  rw [ci_eq]

/-! ### The result's rows from 64 on -/

/-- Row 64 + r of the result at trailing coordinates (b, c, d) is the scattered array at (r, flat position). -/
private theorem RT_piece (a : Fin 8256) (b : Fin 8) (c d : Fin 32) (h : 64 ≤ a.val) (ha : a.val - 64 < 8192) :
    RT X (ix4 a b c d) = tail2 X (ix2 (⟨a.val - 64, ha⟩ : Fin 8192) (fl (ix4 a b c d))) := by
  have e1 : RT X (ix4 a b c d)
      = shapeCast S8192x8x32x32 (tail2 X) shapeCasts_S8192x8192_S8192x8x32x32 (ix4 (⟨a.val - 64, ha⟩ : Fin 8192) b c d) := by
    unfold RT
    refine concatenate_apply_piece (t := S8256x8x32x32) (0 : Fin 4) _ _ (ix4 a b c d) 2 ?_ S8192x8x32x32 _ ?_ ?_ 64 ?_
      (ix4 (⟨a.val - 64, ha⟩ : Fin 8192) b c d) ?_ ?_
    · show 2 < 3; omega
    · rfl
    · rfl
    · rfl
    · intro b' hb'
      match b', hb' with
      | ⟨0, _⟩, hb' => exact absurd rfl hb'
      | ⟨1, _⟩, _ => rfl
      | ⟨2, _⟩, _ => rfl
      | ⟨3, _⟩, _ => rfl
    · show 64 + (a.val - 64) = a.val
      omega
  have e2 : shapeCast S8192x8x32x32 (tail2 X) shapeCasts_S8192x8192_S8192x8x32x32 (ix4 (⟨a.val - 64, ha⟩ : Fin 8192) b c d)
      = tail2 X (ix2 (⟨a.val - 64, ha⟩ : Fin 8192) (fl (ix4 a b c d))) := by
    refine shapeCast_apply (tail2 X) shapeCasts_S8192x8192_S8192x8x32x32 _ _ ?_
    rw [Shape.rowMajor_val_two, Shape.rowMajor_val_four]
    show (a.val - 64) * 8192 + (b.val * 1024 + c.val * 32 + d.val) = (((a.val - 64) * 8 + b.val) * 32 + c.val) * 32 + d.val
    omega
  rw [e1, e2]

theorem RT_high (i : S8256x8x32x32.Idx) (h : 64 ≤ (i 0).val) :
    RT X i = Scalar.select
      (IntOp.cmpi .eq (BitVec.ofNat 32 ((i 0).val - 64))
        (Cert.Zono.rowsOf reduceWindows_S8192_S8192_w8192s1p8191_0 h_S_ bcast_S_S_ bcast_S_S8192 (Cert.Zono.ci2 (Cert.Zono.x2 X)) (ix1 (fl i))))
      (Cert.Zono.val2 (Cert.Zono.x2 X) (ix1 (fl i))) Cert.Zono.Z := by
  obtain ⟨a, b, c, d, rfl⟩ : ∃ (a : Fin 8256) (b : Fin 8) (c d : Fin 32), i = ix4 a b c d :=
    ⟨i 0, i 1, i 2, i 3, eq_ix4 i⟩
  have h64 : 64 ≤ a.val := h
  have ha : a.val - 64 < 8192 := by have := a.isLt; omega
  rw [RT_piece X a b c d h64 ha, tail2_apply, rows_eq, upd_apply]

end Cert.ReferenceIdeal.RS

end
-- ==== Proof.RVal.lean ====
/-
  The reference's stack of stages is the specification.

  The specification is the [8256, 8192] stack with its column axis split row-major into 8 x 32 x 32, so at a
  result index (R, c, h, w) it reads the stack at (R, c * 1024 + h * 32 + w).  Rows below 64 are the head and
  body rows; the others are the new error rows.
-/
import proofs.«160533_j26998164423204_1_alg».proof.Proof.RLow
import proofs.«160533_j26998164423204_1_alg».proof.Proof.RTail
import Idealize.ShloMosaic.Lib.Pipeline.Value

noncomputable section

namespace Cert.ReferenceIdeal.RS

open Cert.ReferenceIdeal Cert.ReferenceIdeal.Facts₀ Cert.ReferenceIdeal.Facts Idealize.ShloMosaic Idealize.ShloMosaic.ValueIdx

variable (X : S64x8x32x32.Idx → EReal)

theorem RT_eq_SPEC :
    RT X = Cert.Zono.SPEC reduceWindows_S8192_S8192_w8192s1p8191_0 h_S_ bcast_S_S_ bcast_S_S8192 X := by
  funext i
  have h0 : (i 0).val < 8256 := (i 0).isLt
  have h1 : (i 1).val < 8 := (i 1).isLt
  have h2 : (i 2).val < 32 := (i 2).isLt
  have h3 : (i 3).val < 32 := (i 3).isLt
  unfold Cert.Zono.SPEC
  refine Eq.trans ?_ (shapeCast_apply (s := Cert.Zono.SO2) (t := Cert.Zono.SO) _ _ i
    (ix2 (⟨(i 0).val, h0⟩ : Fin 8256) (fl i)) ?_).symm
  · unfold Cert.Zono.OUT2
    by_cases hlt : (i 0).val < 64
    · rw [dif_pos (show ((ix2 (⟨(i 0).val, h0⟩ : Fin 8256) (fl i) : Cert.Zono.SO2.Idx) 0).val < 64 from hlt)]
      exact RT_low X i hlt
    · rw [dif_neg (show ¬((ix2 (⟨(i 0).val, h0⟩ : Fin 8256) (fl i) : Cert.Zono.SO2.Idx) 0).val < 64 from hlt)]
      exact RT_high X i (Nat.le_of_not_lt hlt)
  · rw [Shape.rowMajor_val_two, Shape.rowMajor_val_four]
    show (i 0).val * 8192 + ((i 1).val * 1024 + (i 2).val * 32 + (i 3).val)
      = (((i 0).val * 8 + (i 1).val) * 32 + (i 2).val) * 32 + (i 3).val
    omega

end Cert.ReferenceIdeal.RS

end
-- ==== Proof.lean ====
/-
  The certificate: the kernel program and its jnp reference compute the same [8256, 8, 32, 32] array over the
  extended reals.

  Both programs map a zonotope (a centre row and 63 error rows over 8192 content positions) through the ReLU
  relaxation: per position the radius e = sum |error|, bounds a - e and a + e, the crossing and non-negative masks,
  the slope and the offset; the result stacks the new centre, the rescaled error rows, and one new error row per
  position, row r carrying half the offset of the (r+1)-th crossing position.  The kernel does the per-position
  arithmetic in one Pallas call, the prefix sum on the host, and builds the 8192 new rows in a second call by
  comparing row numbers with the row table; the reference scatters.  Proof/Spec.lean states the common value; the
  two orders of operations agree by Proof/ScalarLaws.lean (the slopes differ only where the mask is zero, and there
  every use of the slope is multiplied by the mask); the kernel program's value is read off its two regions and
  host stretches (Proof/KReg0, KGlue, KReg1, KPay, KVal over the run Proof/KRun), the reference's off its run
  (Proof/RRun, RAfter) stage by stage (Proof/RStages, RFloat, RLow, RTail with the scatter read of
  Proof/ScatterLib, RVal).  The three frames are the generated ones (the reference's is its run with the result
  dropped); the ideal pass rewrote nothing, so the idealization claim is trivial.
-/
import proofs.«160533_j26998164423204_1_alg».proof.Defs
import proofs.«160533_j26998164423204_1_alg».proof.Proof.Gen.Kernel
import proofs.«160533_j26998164423204_1_alg».proof.Proof.Gen.Kernel.Skeleton
import proofs.«160533_j26998164423204_1_alg».proof.Proof.Gen.Kernel.Launch
import proofs.«160533_j26998164423204_1_alg».proof.Proof.Gen.Kernel.Points
import proofs.«160533_j26998164423204_1_alg».proof.Proof.Gen.Kernel.Frame
import proofs.«160533_j26998164423204_1_alg».proof.Proof.Gen.KernelIdeal
import proofs.«160533_j26998164423204_1_alg».proof.Proof.Gen.KernelIdeal.Skeleton
import proofs.«160533_j26998164423204_1_alg».proof.Proof.Gen.KernelIdeal.Launch
import proofs.«160533_j26998164423204_1_alg».proof.Proof.Gen.KernelIdeal.Points
import proofs.«160533_j26998164423204_1_alg».proof.Proof.Gen.KernelIdeal.Frame
import proofs.«160533_j26998164423204_1_alg».proof.Proof.Gen.ReferenceIdeal
import proofs.«160533_j26998164423204_1_alg».proof.Proof.Gen.Pre_finite_inputs
import proofs.«160533_j26998164423204_1_alg».proof.Proof.KRun
import proofs.«160533_j26998164423204_1_alg».proof.Proof.KVal
import proofs.«160533_j26998164423204_1_alg».proof.Proof.RRun
import proofs.«160533_j26998164423204_1_alg».proof.Proof.RAfter
import proofs.«160533_j26998164423204_1_alg».proof.Proof.RVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end with the result at the specification of the (agreeing) arguments. -/
theorem algebraic : Cert.algebraic_KernelIdeal_ReferenceIdeal := by
  intro m ρ m' ρ' _ hagree
  refine ⟨fun c => Cert.KernelIdeal.Gen.W9 m ρ c (Proc.devRef .tc Cert.KernelIdeal.main_v13),
    Cert.KernelIdeal.ValRun.run_val (F := Ideal) m ρ, ?_⟩
  refine (θ_run Cert.ReferenceIdeal.defs _ _).mono (fun _ h c => ⟨(h c).1.trans ?_, (h c).2⟩)
    (Cert.ReferenceIdeal.RefRun.run (F := Ideal) m' ρ')
  exact (Cert.ReferenceIdeal.RefRun.after_eq m' c).trans
    ((Cert.ReferenceIdeal.RS.RT_eq_SPEC _).trans
      ((congrArg (Cert.Zono.SPEC Cert.ReferenceIdeal.Facts₀.reduceWindows_S8192_S8192_w8192s1p8191_0 Cert.ReferenceIdeal.Facts₀.h_S_
          Cert.ReferenceIdeal.Facts₀.bcast_S_S_ Cert.ReferenceIdeal.Facts₀.bcast_S_S8192) (hagree c)).trans
        (Cert.KernelIdeal.KVal.kernel_value m ρ c).symm))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
